-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x130 : Shape := ⟨2, ![200000, 130]⟩
abbrev S2x600000 : Shape := ⟨2, ![2, 600000]⟩
abbrev S130x128 : Shape := ⟨2, ![130, 128]⟩
abbrev S128 : Shape := ⟨1, ![128]⟩
abbrev S128x128 : Shape := ⟨2, ![128, 128]⟩
abbrev S_ : Shape := ⟨0, ![]⟩

class Facts : Prop where
  bcast_S_S200000x130 : S_.BroadcastsInDim S200000x130 (![] : Fin 0 → Fin S200000x130.rank)
  reducesTo_S200000x130_S_d0_1 : S200000x130.ReducesTo [0, 1] S_
  h_S_ : 0 < S_.numel
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_v13 : IVec S_ 1) (main_v16 : IVec S130x128 1) : IVec S_ 1 :=
  let main_c_5 : IVec S_ 1 := constantI S_ 1 1#1
  let main_v17 : IVec S_ 1 := (fun x v => Host.reduce IntOp.andi x v reducesTo_S130x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S200000x130 .f32) (main_arg1 : IVec S2x600000 32) (main_arg2 : FVec F S130x128 .f32) (main_arg3 : FVec F S128 .f32) (main_arg4 : FVec F S130x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) : IVec S_ 1 :=
  let main_v0 : FVec F S200000x130 .f32 := Host.absf main_arg0
  let main_cst : FVec F S_ .f32 := constant S_ .f32 0x7F800000#32
  let main_v1 : FVec F S200000x130 .f32 := broadcastInDim S200000x130 ![] bcast_S_S200000x130 main_cst
  let main_v2 : IVec S200000x130 1 := cmpf .olt main_v0 main_v1
  let main_c : IVec S_ 1 := constantI S_ 1 1#1
  let main_v3 : IVec S_ 1 := (fun x v => Host.reduce IntOp.andi x v reducesTo_S200000x130_S_d0_1 h_S_) main_v2 main_c
  let main_v4 : FVec F S130x128 .f32 := Host.absf main_arg2
  let main_cst_0 : FVec F S_ .f32 := constant S_ .f32 0x7F800000#32
  let main_v5 : FVec F S130x128 .f32 := broadcastInDim S130x128 ![] bcast_S_S130x128 main_cst_0
  let main_v6 : IVec S130x128 1 := cmpf .olt main_v4 main_v5
  let main_c_1 : IVec S_ 1 := constantI S_ 1 1#1
  let main_v7 : IVec S_ 1 := (fun x v => Host.reduce IntOp.andi x v reducesTo_S130x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S130x128 .f32 := Host.absf main_arg4
  let main_cst_4 : FVec F S_ .f32 := constant S_ .f32 0x7F800000#32
  let main_v15 : FVec F S130x128 .f32 := broadcastInDim S130x128 ![] bcast_S_S130x128 main_cst_4
  let main_v16 : IVec S130x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S200000x130 : Shape := ⟨2, ![200000, 130]⟩
abbrev S2x600000 : Shape := ⟨2, ![2, 600000]⟩
abbrev S130x128 : Shape := ⟨2, ![130, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S200000 : Shape := ⟨1, ![200000]⟩
abbrev S600000x1 : Shape := ⟨2, ![600000, 1]⟩
abbrev S200000x1 : Shape := ⟨2, ![200000, 1]⟩
abbrev S600000x130 : Shape := ⟨2, ![600000, 130]⟩
abbrev S1x128 : Shape := ⟨2, ![1, 128]⟩
abbrev S200000x128 : Shape := ⟨2, ![200000, 128]⟩
abbrev S2000x130 : Shape := ⟨2, ![2000, 130]⟩
abbrev S2000x1 : Shape := ⟨2, ![2000, 1]⟩
abbrev S2000x128 : Shape := ⟨2, ![2000, 128]⟩
abbrev S600000x128 : Shape := ⟨2, ![600000, 128]⟩

abbrev nBuf : Space → Nat
  | .hbm => 71
  | .vmem => 30
  | .smem => 0
  | _ => 0

abbrev bufTy : (tb : Table) → Fin (tcTables nBuf tb) → BufTy
  | .hbm, ⟨0, _⟩ => ⟨S200000x130, .f32⟩
  | .hbm, ⟨1, _⟩ => ⟨S2x600000, .i32⟩
  | .hbm, ⟨2, _⟩ => ⟨S130x128, .f32⟩
  | .hbm, ⟨3, _⟩ => ⟨S128, .f32⟩
  | .hbm, ⟨4, _⟩ => ⟨S130x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S200000, .f32⟩
  | .hbm, ⟨24, _⟩ => ⟨S600000x1, .i32⟩
  | .hbm, ⟨25, _⟩ => ⟨S200000, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S200000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x130, .f32⟩
  | .hbm, ⟨42, _⟩ => ⟨S_, .f32⟩
  | .hbm, ⟨43, _⟩ => ⟨S200000x130, .f32⟩
  | .hbm, ⟨44, _⟩ => ⟨S600000x1, .i32⟩
  | .hbm, ⟨45, _⟩ => ⟨S200000x130, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S200000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S200000x128, .f32⟩
  | .hbm, ⟨63, _⟩ => ⟨S600000x1, .i32⟩
  | .hbm, ⟨64, _⟩ => ⟨S200000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S200000x128, .f32⟩
  | .local _ .vmem, ⟨0, _⟩ => ⟨S2000x130, .f32⟩
  | .local _ .vmem, ⟨1, _⟩ => ⟨S2000x130, .f32⟩
  | .local _ .vmem, ⟨2, _⟩ => ⟨S2000x1, .f32⟩
  | .local _ .vmem, ⟨3, _⟩ => ⟨S2000x1, .f32⟩
  | .local _ .vmem, ⟨4, _⟩ => ⟨S2000x130, .f32⟩
  | .local _ .vmem, ⟨5, _⟩ => ⟨S2000x130, .f32⟩
  | .local _ .vmem, ⟨6, _⟩ => ⟨S130x128, .f32⟩
  | .local _ .vmem, ⟨7, _⟩ => ⟨S1x128, .f32⟩
  | .local _ .vmem, ⟨8, _⟩ => ⟨S130x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S200000x130, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x130 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S130x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S130x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  shapeCasts_S200000_S200000x1 : S200000.ShapeCasts S200000x1
  bcast_S_S200000x130 : S_.BroadcastsInDim S200000x130 (![] : Fin 0 → Fin S200000x130.rank)
  shapeCasts_S128_S1x128 : S128.ShapeCasts S1x128
  inb_S2000x130_S2000x130_0_0 : ∀ a, (![0, 0] : Fin 2 → Nat) a + S2000x130.size a ≤ S2000x130.size a
  h_S2000x130 : 0 < S2000x130.numel
  shapeCasts_S2000x130_S2000x130 : S2000x130.ShapeCasts S2000x130
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x130 : S2000x1.Broadcasts S2000x130
  bitsLt_bf16_f32 : FTy.bits .bf16 < FTy.bits .f32
  inb_S130x128_S130x128_0_0 : ∀ a, (![0, 0] : Fin 2 → Nat) a + S130x128.size a ≤ S130x128.size a
  h_S130x128 : 0 < S130x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S200000x128 : S_.BroadcastsInDim S200000x128 (![] : Fin 0 → Fin S200000x128.rank)
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  scatter_S200000_S600000x1_S600000_n_0_0_1_wf : ScatterDims.WF S200000 S600000x1 S600000 [] [0] [0] 1
  gather_S200000x130_S600000x1_S600000x130_1_0_n_n_0_1_1130_wf : GatherDims.WF S200000x130 S600000x1 S600000x130 [1] [0] [] [0] [] 1 ![1, 130]
  scatter_S200000x130_S600000x1_S600000x130_1_0_0_1_wf : ScatterDims.WF S200000x130 S600000x1 S600000x130 [1] [0] [0] 1
  dot_S2000x130_S130x128_S2000x128_1_0_0_1_n_n_wf : DotDims.WF S2000x130 S130x128 S2000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x130.size a ≤ S200000x130.size a
  hwx0_0 : ∀ i : grid0.Coords, EltTy.bits .f32 = 32 ∨ (Rect.block (s := S200000x130) S2000x130.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .f32 = 32 ∨ (Rect.block (s := S200000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x130.size a ≤ S200000x130.size a
  hwx0_2 : ∀ i : grid0.Coords, EltTy.bits .f32 = 32 ∨ (Rect.block (s := S200000x130) S2000x130.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S130x128.size a ≤ S130x128.size a
  hwx0_3 : ∀ i : grid0.Coords, EltTy.bits .f32 = 32 ∨ (Rect.block (s := S130x128) S130x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S130x128.size a ≤ S130x128.size a
  hwx0_5 : ∀ i : grid0.Coords, EltTy.bits .f32 = 32 ∨ (Rect.block (s := S130x128) S130x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S200000x128.size a
  hwx0_10 : ∀ i : grid0.Coords, EltTy.bits .f32 = 32 ∨ (Rect.block (s := S200000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S200000x1.size a
  hwx1_1 : ∀ i : grid1.Coords, EltTy.bits .f32 = 32 ∨ (Rect.block (s := S200000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S200000x128.size a
  hwx1_2 : ∀ i : grid1.Coords, EltTy.bits .f32 = 32 ∨ (Rect.block (s := S200000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S200000x128.size a
  hwx1_10 : ∀ i : grid1.Coords, EltTy.bits .f32 = 32 ∨ (Rect.block (s := S200000x128) S2000x128.size (cc1_transform_10 i) (hinb1_10 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x130_S600000x1_S600000x130_1_0_n_n_0_1_1130 : GatherDims S200000x130 S600000x1 S600000x130 where
  offsetDims := [1]
  collapsedSliceDims := [0]
  operandBatchingDims := []
  startIndicesBatchingDims := []
  startIndexMap := [0]
  indexVectorDim := 1
  sliceSizes := ![1, 130]
  wf := gather_S200000x130_S600000x1_S600000x130_1_0_n_n_0_1_1130_wf
def scatter_S200000x130_S600000x1_S600000x130_1_0_0_1 : ScatterDims S200000x130 S600000x1 S600000x130 where
  updateWindowDims := [1]
  insertedWindowDims := [0]
  scatterDimsToOperandDims := [0]
  indexVectorDim := 1
  wf := scatter_S200000x130_S600000x1_S600000x130_1_0_0_1_wf
def dot_S2000x130_S130x128_S2000x128_1_0_0_1_n_n : DotDims S2000x130 S130x128 S2000x128 where
  lhsContracting := [1]
  rhsContracting := [0]
  lhsNonContracting := [0]
  rhsNonContracting := [1]
  lhsBatch := []
  rhsBatch := []
  wf := dot_S2000x130_S130x128_S2000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x130.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S130x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S130x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S200000x130 : Shape := ⟨2, ![200000, 130]⟩
abbrev S2x600000 : Shape := ⟨2, ![2, 600000]⟩
abbrev S130x128 : Shape := ⟨2, ![130, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x130 : Shape := ⟨2, ![600000, 130]⟩
abbrev S200000x1 : Shape := ⟨2, ![200000, 1]⟩
abbrev S200000x128 : Shape := ⟨2, ![200000, 128]⟩
abbrev S1x128 : Shape := ⟨2, ![1, 128]⟩
abbrev S600000x128 : Shape := ⟨2, ![600000, 128]⟩

abbrev nBuf : Space → Nat
  | .hbm => 114
  | .vmem => 0
  | .smem => 0
  | _ => 0

abbrev bufTy : (tb : Table) → Fin (tcTables nBuf tb) → BufTy
  | .hbm, ⟨0, _⟩ => ⟨S200000x130, .f32⟩
  | .hbm, ⟨1, _⟩ => ⟨S2x600000, .i32⟩
  | .hbm, ⟨2, _⟩ => ⟨S130x128, .f32⟩
  | .hbm, ⟨3, _⟩ => ⟨S128, .f32⟩
  | .hbm, ⟨4, _⟩ => ⟨S130x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x130, .f32⟩
  | .hbm, ⟨29, _⟩ => ⟨S_, .f32⟩
  | .hbm, ⟨30, _⟩ => ⟨S200000x130, .f32⟩
  | .hbm, ⟨31, _⟩ => ⟨S600000x1, .i32⟩
  | .hbm, ⟨32, _⟩ => ⟨S200000x130, .f32⟩
  | .hbm, ⟨33, _⟩ => ⟨S_, .f32⟩
  | .hbm, ⟨34, _⟩ => ⟨S600000x1, .f32⟩
  | .hbm, ⟨35, _⟩ => ⟨S_, .f32⟩
  | .hbm, ⟨36, _⟩ => ⟨S200000x1, .f32⟩
  | .hbm, ⟨37, _⟩ => ⟨S600000x1, .i32⟩
  | .hbm, ⟨38, _⟩ => ⟨S200000x1, .f32⟩
  | .hbm, ⟨39, _⟩ => ⟨S_, .f32⟩
  | .hbm, ⟨40, _⟩ => ⟨S200000x1, .f32⟩
  | .hbm, ⟨41, _⟩ => ⟨S200000x1, .f32⟩
  | .hbm, ⟨42, _⟩ => ⟨S200000x130, .f32⟩
  | .hbm, ⟨43, _⟩ => ⟨S200000x130, .f32⟩
  | .hbm, ⟨44, _⟩ => ⟨S200000x128, .f32⟩
  | .hbm, ⟨45, _⟩ => ⟨S1x128, .f32⟩
  | .hbm, ⟨46, _⟩ => ⟨S200000x128, .f32⟩
  | .hbm, ⟨47, _⟩ => ⟨S200000x128, .f32⟩
  | .hbm, ⟨48, _⟩ => ⟨S200000x128, .f32⟩
  | .hbm, ⟨49, _⟩ => ⟨S200000x128, .f32⟩
  | .hbm, ⟨50, _⟩ => ⟨S1x128, .f32⟩
  | .hbm, ⟨51, _⟩ => ⟨S200000x128, .f32⟩
  | .hbm, ⟨52, _⟩ => ⟨S200000x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S200000x128, .f32⟩
  | .hbm, ⟨60, _⟩ => ⟨S200000x128, .f32⟩
  | .hbm, ⟨61, _⟩ => ⟨S1x128, .f32⟩
  | .hbm, ⟨62, _⟩ => ⟨S200000x128, .f32⟩
  | .hbm, ⟨63, _⟩ => ⟨S200000x128, .f32⟩
  | .hbm, ⟨64, _⟩ => ⟨S_, .f32⟩
  | .hbm, ⟨65, _⟩ => ⟨S200000x128, .f32⟩
  | .hbm, ⟨66, _⟩ => ⟨S200000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S200000x128, .f32⟩
  | .hbm, ⟨78, _⟩ => ⟨S600000x1, .i32⟩
  | .hbm, ⟨79, _⟩ => ⟨S200000x128, .f32⟩
  | .hbm, ⟨80, _⟩ => ⟨S_, .f32⟩
  | .hbm, ⟨81, _⟩ => ⟨S600000x1, .f32⟩
  | .hbm, ⟨82, _⟩ => ⟨S_, .f32⟩
  | .hbm, ⟨83, _⟩ => ⟨S200000x1, .f32⟩
  | .hbm, ⟨84, _⟩ => ⟨S600000x1, .i32⟩
  | .hbm, ⟨85, _⟩ => ⟨S200000x1, .f32⟩
  | .hbm, ⟨86, _⟩ => ⟨S_, .f32⟩
  | .hbm, ⟨87, _⟩ => ⟨S200000x1, .f32⟩
  | .hbm, ⟨88, _⟩ => ⟨S200000x1, .f32⟩
  | .hbm, ⟨89, _⟩ => ⟨S200000x128, .f32⟩
  | .hbm, ⟨90, _⟩ => ⟨S200000x128, .f32⟩
  | .hbm, ⟨91, _⟩ => ⟨S200000x128, .f32⟩
  | .hbm, ⟨92, _⟩ => ⟨S1x128, .f32⟩
  | .hbm, ⟨93, _⟩ => ⟨S200000x128, .f32⟩
  | .hbm, ⟨94, _⟩ => ⟨S200000x128, .f32⟩
  | .hbm, ⟨95, _⟩ => ⟨S200000x128, .f32⟩
  | .hbm, ⟨96, _⟩ => ⟨S200000x128, .f32⟩
  | .hbm, ⟨97, _⟩ => ⟨S1x128, .f32⟩
  | .hbm, ⟨98, _⟩ => ⟨S200000x128, .f32⟩
  | .hbm, ⟨99, _⟩ => ⟨S200000x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S200000x128, .f32⟩
  | .hbm, ⟨107, _⟩ => ⟨S200000x128, .f32⟩
  | .hbm, ⟨108, _⟩ => ⟨S1x128, .f32⟩
  | .hbm, ⟨109, _⟩ => ⟨S200000x128, .f32⟩
  | .hbm, ⟨110, _⟩ => ⟨S200000x128, .f32⟩
  | .hbm, ⟨111, _⟩ => ⟨S_, .f32⟩
  | .hbm, ⟨112, _⟩ => ⟨S200000x128, .f32⟩
  | .hbm, ⟨113, _⟩ => ⟨S200000x128, .f32⟩
  | _, _ => ⟨S200000x130, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_cst : Ref sig .tc := ⟨.hbm, 64, rfl⟩
abbrev main_call0_v0 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_c_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x130 : S_.BroadcastsInDim S200000x130 (![] : Fin 0 → Fin S200000x130.rank)
  bcast_S_S600000x1 : S_.BroadcastsInDim S600000x1 (![] : Fin 0 → Fin S600000x1.rank)
  bcast_S_S200000x1 : S_.BroadcastsInDim S200000x1 (![] : Fin 0 → Fin S200000x1.rank)
  bcast_S200000x1_S200000x130_0_1 : S200000x1.BroadcastsInDim S200000x130 (![0, 1] : Fin 2 → Fin S200000x130.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S128 : S_.BroadcastsInDim S128 (![] : Fin 0 → Fin S128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  gather_S200000x130_S600000x1_S600000x130_1_0_n_n_0_1_1130_wf : GatherDims.WF S200000x130 S600000x1 S600000x130 [1] [0] [] [0] [] 1 ![1, 130]
  scatter_S200000x130_S600000x1_S600000x130_1_0_0_1_wf : ScatterDims.WF S200000x130 S600000x1 S600000x130 [1] [0] [0] 1
  scatter_S200000x1_S600000x1_S600000x1_1_0_0_1_wf : ScatterDims.WF S200000x1 S600000x1 S600000x1 [1] [0] [0] 1
  dot_S200000x130_S130x128_S200000x128_1_0_0_1_n_n_wf : DotDims.WF S200000x130 S130x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x128_S200000x128_1_0_0_1_n_n_wf : DotDims.WF S200000x128 S128x128 S200000x128 [1] [0] [0] [1] [] []

variable [Facts₀]

def gather_S200000x130_S600000x1_S600000x130_1_0_n_n_0_1_1130 : GatherDims S200000x130 S600000x1 S600000x130 where
  offsetDims := [1]
  collapsedSliceDims := [0]
  operandBatchingDims := []
  startIndicesBatchingDims := []
  startIndexMap := [0]
  indexVectorDim := 1
  sliceSizes := ![1, 130]
  wf := gather_S200000x130_S600000x1_S600000x130_1_0_n_n_0_1_1130_wf
def scatter_S200000x130_S600000x1_S600000x130_1_0_0_1 : ScatterDims S200000x130 S600000x1 S600000x130 where
  updateWindowDims := [1]
  insertedWindowDims := [0]
  scatterDimsToOperandDims := [0]
  indexVectorDim := 1
  wf := scatter_S200000x130_S600000x1_S600000x130_1_0_0_1_wf
def scatter_S200000x1_S600000x1_S600000x1_1_0_0_1 : ScatterDims S200000x1 S600000x1 S600000x1 where
  updateWindowDims := [1]
  insertedWindowDims := [0]
  scatterDimsToOperandDims := [0]
  indexVectorDim := 1
  wf := scatter_S200000x1_S600000x1_S600000x1_1_0_0_1_wf
def dot_S200000x130_S130x128_S200000x128_1_0_0_1_n_n : DotDims S200000x130 S130x128 S200000x128 where
  lhsContracting := [1]
  rhsContracting := [0]
  lhsNonContracting := [0]
  rhsNonContracting := [1]
  lhsBatch := []
  rhsBatch := []
  wf := dot_S200000x130_S130x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibGraphConv.lean ====
/-
  General facts about one graph-convolution layer read on the extended reals, independent of any program.

  The layer: from a matrix A of neighbour means and the node features X (both M×K), two weight matrices W, W' (K×N) and a
  bias b (N entries), entry (p, q) of the result is
      (Σ_k A(p,k)·W(k,q) + Σ_k X(p,k)·W'(k,q)) + b(q),
  clamped below at zero when the layer has a rectifier (`layer`).
  * A kernel that multiplies a row tile of A and of X by the weights into zero accumulators, adds the two products, adds
    the bias row copied down the tile and takes the maximum with zero computes, at a tile entry, this expression of the
    tile's rows (`tile_apply`).
  * The host's form — (A·W + b) + X·W', the bias copied along the rows, then the maximum with a zero splat — is the same
    function: only the order of the two additions differs, and addition of extended reals is commutative and associative
    (`host_layer_eq`, `host_layer_relu_eq`).
  * The neighbour mean: a sum array S divided entrywise by the column max(deg, 1) is S times the column 1/max(deg, 1),
    because max(deg, 1) ≥ 1 is never zero, and off zero the ideal quotient x / y is x · y⁻¹ while 1 / y is y⁻¹
    (`mul_recip_eq_div`, `mean_mul_eq_div`).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember
import proofs.«157894_j8160437862402_1_alg».proof.Proof.LibPlainMatmul

noncomputable section

namespace LibGraphConv

open Idealize.ShloMosaic Idealize.ShloMosaic.ValueIdx

/-! ## The layer as one function of whole arrays -/

/-- Entry (p, q) of a graph-convolution layer: (Σ_k A(p,k)·W(k,q) + Σ_k X(p,k)·W'(k,q)) + b(q), clamped below at zero
    when `relu` is set. -/
def layer (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) : FVec Ideal ⟨2, ![M, N]⟩ .f32 :=
  fun i => if relu then
      max (((∑ k : Fin K, A (ix2 (i 0) k) * W (ix2 k (i 1))) + ∑ k : Fin K, X (ix2 (i 0) k) * W' (ix2 k (i 1))) + b (ix1 (i 1))) 0
    else ((∑ k : Fin K, A (ix2 (i 0) k) * W (ix2 k (i 1))) + ∑ k : Fin K, X (ix2 (i 0) k) * W' (ix2 k (i 1))) + b (ix1 (i 1))

theorem layer_apply (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) (p : Fin M) (q : Fin N) :
    layer relu A X W b W' (ix2 p q) = if relu then
      max (((∑ k : Fin K, A (ix2 p k) * W (ix2 k q)) + ∑ k : Fin K, X (ix2 p k) * W' (ix2 k q)) + b (ix1 q)) 0
    else ((∑ k : Fin K, A (ix2 p k) * W (ix2 k q)) + ∑ k : Fin K, X (ix2 p k) * W' (ix2 k q)) + b (ix1 q) := rfl

/-! ## A kernel's tile -/

/-- A one-row matrix copied down M rows reads, at (p, q), the row's entry q. -/
theorem broadcastTo_row_apply {α : Type} {M N : ℕ} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The two products of a tile into zero accumulators, added, plus the bias row copied down the tile: at a tile entry
    the two sums over the contracted coordinate and the bias entry of that column. -/
theorem tile_apply {M K N : ℕ} {φ₁ φ₂ : FTy} (A X : FVec Ideal ⟨2, ![M, K]⟩ φ₁) (W W' : FVec Ideal ⟨2, ![K, N]⟩ φ₂)
    (b2 : FVec Ideal ⟨2, ![1, N]⟩ .f32) (hb : (⟨2, ![1, N]⟩ : Shape).Broadcasts ⟨2, ![M, N]⟩) (p : Fin M) (q : Fin N) :
    addf (addf (matmul (DotDims.plain M K N) none A W (constant (⟨2, ![M, N]⟩ : Shape) .f32 0x00000000#32))
        (matmul (DotDims.plain M K N) none X W' (constant (⟨2, ![M, N]⟩ : Shape) .f32 0x00000000#32)))
      (broadcastTo ⟨2, ![M, N]⟩ b2 hb) (ix2 p q)
    = ((∑ k : Fin K, A (ix2 p k) * W (ix2 k q)) + ∑ k : Fin K, X (ix2 p k) * W' (ix2 k q)) + b2 (ix2 (0 : Fin 1) q) := by
  rw [addf_apply, addf_apply, LibPlainMatmul.matmul_plain_zero_apply, LibPlainMatmul.matmul_plain_zero_apply,
    broadcastTo_row_apply]

/-- A vector cast to one row reads, at (0, q), the vector's entry q. -/
theorem shapeCast_row_apply {α : Type} {N : ℕ} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]
    show q.val = 0 * N + q.val
    omega)

/-- So the bias a kernel stages as one row is, column by column, the bias vector. -/
theorem row_of_cast {α : Type} {N : ℕ} (b : (⟨1, ![N]⟩ : Shape).Idx → α)
    (h : (⟨1, ![N]⟩ : Shape).ShapeCasts ⟨2, ![1, N]⟩) :
    (fun u : (⟨1, ![N]⟩ : Shape).Idx => shapeCast ⟨2, ![1, N]⟩ b h (ix2 (0 : Fin 1) (u 0))) = b :=
  funext fun u => (shapeCast_row_apply b h (u 0)).trans (congrArg b (eq_ix1 u).symm)

/-! ## The host's form of the layer -/

/-- A vector laid as one row and copied down M rows reads, at (p, q), the vector's entry q. -/
theorem bias_rows_apply {α : Type} {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun ax => by
    match ax with
    | ⟨0, _⟩ =>
      show q.val = if N = 1 then 0 else q.val
      split
      · have := q.isLt; omega
      · rfl)

/-- The host's (A·W + b) + X·W' is the layer without a rectifier: the two additions in the other order. -/
theorem host_layer_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W')
    = layer false A X W b W' := by
  funext i
  obtain ⟨p, q, rfl⟩ : ∃ (p : Fin M) (q : Fin N), i = ix2 p q := ⟨i 0, i 1, eq_ix2 i⟩
  rw [layer_apply, addf_apply, addf_apply, StackMember.dotGeneral_plain_apply, StackMember.dotGeneral_plain_apply,
    bias_rows_apply]
  exact add_right_comm _ _ _

/-- … and with the maximum against a zero splat it is the layer with its rectifier. -/
theorem host_layer_relu_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W'))
      (broadcastInDim ⟨2, ![M, N]⟩ ![] h0 (constant (⟨0, ![]⟩ : Shape) .f32 0x00000000#32))
    = layer true A X W b W' := by
  rw [host_layer_eq]
  funext i
  obtain ⟨p, q, rfl⟩ : ∃ (p : Fin M) (q : Fin N), i = ix2 p q := ⟨i 0, i 1, eq_ix2 i⟩
  rw [maximumf_apply, layer_apply, layer_apply,
    broadcastInDim_apply ![] h0 _ (ix2 p q) ix0 (fun ax => ax.elim0), constant_apply, Ideal.ofBits_zero_f32]
  rfl

/-! ## The neighbour mean: times the reciprocal column, or divided by the column -/

/-- Off zero the ideal quotient is the product with the inverse, so x · (1 / y) = x / y. -/
theorem mul_recip_eq_div (x y : EReal) (hy : y ≠ 0) : x * Ideal.div 1 y = Ideal.div x y := by
  unfold Ideal.div
  rw [if_neg hy, if_neg hy, one_mul]

/-- A vector of per-row values made a column and copied across the row reads, at (p, q), the value of row p. -/
theorem column_apply {α : Type} {n K : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, K]⟩ ![0, 1]) (p : Fin n) (q : Fin K) :
    broadcastInDim ⟨2, ![n, K]⟩ ![0, 1] h2 (broadcastInDim ⟨2, ![n, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if n = 1 then 0 else p.val
      split
      · have := p.isLt; omega
      · rfl
    | ⟨1, _⟩ => rfl)]
  exact broadcastInDim_apply ![0] h1 v (ix2 p (0 : Fin 1)) (ix1 p) (fun ax => by
    match ax with
    | ⟨0, _⟩ =>
      show p.val = if n = 1 then 0 else p.val
      split
      · have := p.isLt; omega
      · rfl)

/-- The sums S times the column 1 / max(deg, 1) is S divided by the column max(deg, 1): the divisor is at least one. -/
theorem mean_mul_eq_div {n K : ℕ} (S : FVec Ideal ⟨2, ![n, K]⟩ .f32) (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, K]⟩ ![0, 1]) :
    mulf S (broadcastInDim ⟨2, ![n, K]⟩ ![0, 1] h2 (broadcastInDim ⟨2, ![n, 1]⟩ ![0] h1
      (Host.divf (broadcastInDim ⟨1, ![n]⟩ ![] h0 (constant (⟨0, ![]⟩ : Shape) .f32 0x3F800000#32))
        (maximumf deg (broadcastInDim ⟨1, ![n]⟩ ![] h0 (constant (⟨0, ![]⟩ : Shape) .f32 0x3F800000#32))))))
    = Host.divf S (broadcastInDim ⟨2, ![n, K]⟩ ![0, 1] h2 (broadcastInDim ⟨2, ![n, 1]⟩ ![0] h1
        (maximumf deg (broadcastInDim ⟨1, ![n]⟩ ![] h0 (constant (⟨0, ![]⟩ : Shape) .f32 0x3F800000#32))))) := by
  funext i
  obtain ⟨p, q, rfl⟩ : ∃ (p : Fin n) (q : Fin K), i = ix2 p q := ⟨i 0, i 1, eq_ix2 i⟩
  rw [mulf_apply, column_apply]
  show S (ix2 p q) * Ideal.div _ _ = Ideal.div (S (ix2 p q)) _
  rw [column_apply, maximumf_apply, broadcastInDim_apply ![] h0 _ (ix1 p) ix0 (fun ax => ax.elim0), constant_apply,
    Ideal.ofBits_one_f32]
  refine mul_recip_eq_div _ _ ?_
  exact (lt_of_lt_of_le zero_lt_one (le_max_right _ _)).ne'

end LibGraphConv

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibSageLayer.lean ====
/-
  One layer of a mean-aggregating graph convolution with an affine normalisation and a rectifier, read on the
  extended reals, independent of any program.

  From a matrix `mean` of neighbour means and the node features `x` (both N×K), two weight matrices `Wl`, `Wr`
  (K×H), a bias `bl`, and the normalisation's scale `g`, shift `be`, running mean `rm` and running variance `rv`
  (H entries each), entry (p, q) of the layer is

      max( (((Σ_k mean(p,k)·Wl(k,q) + Σ_k x(p,k)·Wr(k,q)) + bl(q)) − rm(q)) · (g(q) · rsqrt(rv(q) + ε)) + be(q), 0 )

  with ε the single-precision word 0x3727C5AC (`layer`).
  * A row tile computed as: the sums' rows times a per-row factor, times `Wl`, into a zero accumulator; the features'
    rows times `Wr` into a zero accumulator; the two products added; the bias row, the mean row, the scale row and
    the shift row copied down the tile; the maximum with zero — is, at a tile entry, this expression of the tile's
    rows with mean(p,k) = sums(p,k)·factor(p) (`tile_apply`).
  * The other grouping of the two additions, (Σ mean·Wl + bl) + Σ x·Wr, is the same number: addition of extended
    reals is commutative and associative (`entry_regroup`).
  * Each row of an array of sums times that row's entry of a one-column array (`rowScale`, `rowScale_apply`).
  It builds on the plain matrix product read at an entry, the one-row and one-column layout readings (the three
  modules it imports beside the library).
-/
import Idealize.ShloMosaic.PureOps.Ideal.Laws
import Idealize.ShloMosaic.Lib.ValueIdx
import Idealize.ShloMosaic.Lib.Pipeline.Value
import proofs.«157894_j8160437862402_1_alg».proof.Proof.LibPlainMatmul
import proofs.«157894_j8160437862402_1_alg».proof.Proof.LibGraphConv
import proofs.«157894_j8160437862402_1_alg».proof.Proof.LibColumn

noncomputable section

namespace Cert.Sage

open Idealize.ShloMosaic Idealize.ShloMosaic.ValueIdx

/-- The small constant added to the running variance: the single-precision word of 1e-5. -/
abbrev eps : EReal := Ideal.ofBits .f32 0x3727C5AC#32

/-- One entry of the layer, from the two sums over the contracted coordinate and the five per-column numbers. -/
def entry (sl sr bl g be rm rv : EReal) : EReal :=
  max ((((sl + sr) + bl) - rm) * (g * Ideal.rsqrt (rv + eps)) + be) 0

/-- The grouping (sl + bl) + sr of the two additions gives the same entry. -/
theorem entry_regroup (sl sr bl g be rm rv : EReal) :
    max ((((sl + bl) + sr) - rm) * (g * Ideal.rsqrt (rv + eps)) + be) 0 = entry sl sr bl g be rm rv := by
  unfold entry
  rw [add_right_comm sl bl sr]

/-- The layer as one function of whole arrays. -/
def layer {N K H : ℕ} (mean x : FVec Ideal ⟨2, ![N, K]⟩ .f32) (Wl : FVec Ideal ⟨2, ![K, H]⟩ .f32)
    (bl : FVec Ideal ⟨1, ![H]⟩ .f32) (Wr : FVec Ideal ⟨2, ![K, H]⟩ .f32) (g be rm rv : FVec Ideal ⟨1, ![H]⟩ .f32) :
    FVec Ideal ⟨2, ![N, H]⟩ .f32 :=
  fun i => entry (∑ k : Fin K, mean (ix2 (i 0) k) * Wl (ix2 k (i 1))) (∑ k : Fin K, x (ix2 (i 0) k) * Wr (ix2 k (i 1)))
    (bl (ix1 (i 1))) (g (ix1 (i 1))) (be (ix1 (i 1))) (rm (ix1 (i 1))) (rv (ix1 (i 1)))

theorem layer_apply {N K H : ℕ} (mean x : FVec Ideal ⟨2, ![N, K]⟩ .f32) (Wl : FVec Ideal ⟨2, ![K, H]⟩ .f32)
    (bl : FVec Ideal ⟨1, ![H]⟩ .f32) (Wr : FVec Ideal ⟨2, ![K, H]⟩ .f32) (g be rm rv : FVec Ideal ⟨1, ![H]⟩ .f32)
    (p : Fin N) (q : Fin H) :
    layer mean x Wl bl Wr g be rm rv (ix2 p q)
      = entry (∑ k : Fin K, mean (ix2 p k) * Wl (ix2 k q)) (∑ k : Fin K, x (ix2 p k) * Wr (ix2 k q))
          (bl (ix1 q)) (g (ix1 q)) (be (ix1 q)) (rm (ix1 q)) (rv (ix1 q)) := rfl

/-- Each row of an array times that row's entry of a one-column array: the neighbour means from the sums and the
    per-node factor. -/
def rowScale {N K : ℕ} (S : FVec Ideal ⟨2, ![N, K]⟩ .f32) (s : FVec Ideal ⟨2, ![N, 1]⟩ .f32) : FVec Ideal ⟨2, ![N, K]⟩ .f32 :=
  fun i => S i * s (ix2 (i 0) (0 : Fin 1))

theorem rowScale_apply {N K : ℕ} (S : FVec Ideal ⟨2, ![N, K]⟩ .f32) (s : FVec Ideal ⟨2, ![N, 1]⟩ .f32) (n : Fin N) (k : Fin K) :
    rowScale S s (ix2 n k) = S (ix2 n k) * s (ix2 n (0 : Fin 1)) := rfl

/-- A ROW TILE of the layer as a kernel computes it: at the tile's entry (p, q) the layer's entry of the tile's rows,
    the neighbour mean of row p being the row of sums times the row's factor. -/
theorem tile_apply {M K H : ℕ} (a x : FVec Ideal ⟨2, ![M, K]⟩ .f32) (s : FVec Ideal ⟨2, ![M, 1]⟩ .f32)
    (Wl Wr : FVec Ideal ⟨2, ![K, H]⟩ .f32) (bl g be rm rv : FVec Ideal ⟨2, ![1, H]⟩ .f32)
    (hs : (⟨2, ![M, 1]⟩ : Shape).Broadcasts ⟨2, ![M, K]⟩) (hb : (⟨2, ![1, H]⟩ : Shape).Broadcasts ⟨2, ![M, H]⟩)
    (hbf : FTy.bf16.bits < FTy.f32.bits) (p : Fin M) (q : Fin H) :
    maximumf (addf (mulf (subf (addf (addf
        (matmul (DotDims.plain M K H) none (truncf .bf16 (mulf a (broadcastTo ⟨2, ![M, K]⟩ s hs)) hbf) (truncf .bf16 Wl hbf)
          (constant (⟨2, ![M, H]⟩ : Shape) .f32 0x00000000#32))
        (matmul (DotDims.plain M K H) none (truncf .bf16 x hbf) (truncf .bf16 Wr hbf)
          (constant (⟨2, ![M, H]⟩ : Shape) .f32 0x00000000#32)))
        (broadcastTo ⟨2, ![M, H]⟩ bl hb)) (broadcastTo ⟨2, ![M, H]⟩ rm hb))
        (broadcastTo ⟨2, ![M, H]⟩ (mulf g (rsqrt (addf rv (broadcast ⟨2, ![1, H]⟩ (Scalar.ofBits .f32 0x3727C5AC#32))))) hb))
        (broadcastTo ⟨2, ![M, H]⟩ be hb))
      (broadcast ⟨2, ![M, H]⟩ (Scalar.ofBits .f32 0x00000000#32)) (ix2 p q)
    = entry (∑ k : Fin K, (a (ix2 p k) * s (ix2 p (0 : Fin 1))) * Wl (ix2 k q)) (∑ k : Fin K, x (ix2 p k) * Wr (ix2 k q))
        (bl (ix2 (0 : Fin 1) q)) (g (ix2 (0 : Fin 1) q)) (be (ix2 (0 : Fin 1) q)) (rm (ix2 (0 : Fin 1) q))
        (rv (ix2 (0 : Fin 1) q)) := by
  rw [maximumf_apply, addf_apply, mulf_apply, subf_apply, addf_apply, addf_apply,
    LibPlainMatmul.matmul_plain_zero_apply, LibPlainMatmul.matmul_plain_zero_apply,
    LibGraphConv.broadcastTo_row_apply, LibGraphConv.broadcastTo_row_apply, LibGraphConv.broadcastTo_row_apply,
    LibGraphConv.broadcastTo_row_apply, broadcast_apply]
  simp only [truncf_apply, mulf_apply, Cert.LibColumn.broadcastTo_a1_ab_apply]
  unfold entry
  show max _ (Ideal.ofBits .f32 0x00000000#32) = _
  rw [Ideal.ofBits_zero_f32]
  rfl

end Cert.Sage

end
-- ==== Proof.Region0.lean ====
/-
  The first layer's kernel region, read as a value: whatever the ten arrays it reads hold when the region is entered
  (`V`), the array it writes ends holding the normalised, rectified layer (`Cert.Sage.layer`) of them, with the
  neighbour mean of node n the row of sums of n times the per-node factor of n.

  The region walks the node axis in 100 tiles of 2000 rows. At tile t the body sees rows t·2000 … t·2000+1999 of the
  sums, of the per-node factor and of the features, and the whole weight matrices and per-column rows; what it stores
  is the layer's tile (`Cert.Sage.tile_apply`), which is rows t·2000 … of the layer of the whole arrays because a row of
  the layer depends only on the same row of the sums, the factor and the features. The 100 tiles cover every row (row r
  lies in tile r / 2000), so the written array is the layer everywhere.
-/
import proofs.«157894_j8160437862402_1_alg».proof.Proof.Gen.KernelIdeal.Frame
import proofs.«157894_j8160437862402_1_alg».proof.Proof.LibSageLayer

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The arrays the region reads, by what they are -/

/-- The per-node sums of the neighbours' feature rows. -/
abbrev sums (c : Dev nD) : FVec Ideal S200000x130 .f32 := V c main_v22
/-- The per-node factor, one column. -/
abbrev factor (c : Dev nD) : FVec Ideal S200000x1 .f32 := V c main_v12
/-- The node features. -/
abbrev feats (c : Dev nD) : FVec Ideal S200000x130 .f32 := V c main_arg0
/-- The weights applied to the neighbour mean, and to the node's own features. -/
abbrev wl (c : Dev nD) : FVec Ideal S130x128 .f32 := V c main_arg2
abbrev wr (c : Dev nD) : FVec Ideal S130x128 .f32 := V c main_arg4
/-- The bias, the scale, the shift, the running mean and the running variance, each as one row. -/
abbrev blRow (c : Dev nD) : FVec Ideal S1x128 .f32 := V c main_v23
abbrev gRow (c : Dev nD) : FVec Ideal S1x128 .f32 := V c main_v24
abbrev beRow (c : Dev nD) : FVec Ideal S1x128 .f32 := V c main_v25
abbrev rmRow (c : Dev nD) : FVec Ideal S1x128 .f32 := V c main_v26
abbrev rvRow (c : Dev nD) : FVec Ideal S1x128 .f32 := V c main_v27

/-- A one-row matrix read as the vector of its entries. -/
abbrev rowVec (r : FVec Ideal S1x128 .f32) : FVec Ideal S128 .f32 := fun u => r (ix2 (0 : Fin 1) (u 0))

/-- The neighbour means: each row of sums times its node's factor. -/
abbrev means (c : Dev nD) : FVec Ideal S200000x130 .f32 := Cert.Sage.rowScale (sums V c) (factor V c)

/-- WHAT THE REGION'S OUTPUT ARRAY ENDS HOLDING: the layer of the arrays it read. -/
def out (c : Dev nD) : FVec Ideal S200000x128 .f32 :=
  Cert.Sage.layer (means V c) (feats V c) (wl V c) (rowVec (blRow V c)) (wr V c) (rowVec (gRow V c)) (rowVec (beRow V c))
    (rowVec (rmRow V c)) (rowVec (rvRow V c))

/-! ## The tiles -/

theorem hz : (![0, 0] : Fin 2 → Nat) = fun _ => 0 := funext fun a => by fin_cases a <;> rfl

/-- The block index of every window at every grid point: the three row-tiled inputs and the output are at block
    (t, 0), the weights and the per-column rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem point_lt (t : Fin cfg0.N) : t.val < 100 := lt_of_lt_of_eq t.isLt N_0

/-- Row p of tile t is row t·2000 + p of the whole array. -/
abbrev rowOf (t : Fin cfg0.N) (p : Fin 2000) : Fin 200000 :=
  ⟨t.val * 2000 + p.val, by have := point_lt t; have := p.isLt; omega⟩

/-- The body's stored value at a tile entry, over any loaded blocks: the layer's entry of the tile's rows. -/
theorem pay_apply (x0 : Vec Ideal S2000x130 .f32) (x1 : Vec Ideal S2000x1 .f32) (x2 : Vec Ideal S2000x130 .f32)
    (x3 : Vec Ideal S130x128 .f32) (x4 : Vec Ideal S1x128 .f32) (x5 : Vec Ideal S130x128 .f32) (x6 x7 x8 x9 : Vec Ideal S1x128 .f32)
    (p : Fin 2000) (q : Fin 128) :
    k0_pay1 (k0_pay2 x0 x1 x2 x3 x5 x4 x6 x9 x8) (k0_pay3 x7) (ix2 p q)
      = Cert.Sage.entry (∑ k : Fin 130, (x0 (ix2 p k) * x1 (ix2 p (0 : Fin 1))) * x3 (ix2 k q)) (∑ k : Fin 130, x2 (ix2 p k) * x5 (ix2 k q))
          (x4 (ix2 (0 : Fin 1) q)) (x6 (ix2 (0 : Fin 1) q)) (x7 (ix2 (0 : Fin 1) q)) (x8 (ix2 (0 : Fin 1) q)) (x9 (ix2 (0 : Fin 1) q)) := by
  unfold k0_pay1 k0_pay2 k0_pay3
  simp only [shapeCast_self]
  exact Cert.Sage.tile_apply (M := 2000) (K := 130) (H := 128) x0 x2 x1 x3 x5 x4 x6 x7 x8 x9 _ _ _ p q

/-! ### Each window's block at a point, read where it lies in its array -/

theorem read_sums (c : Dev nD) (t : Fin cfg0.N) (p : Fin 2000) (k : Fin 130) :
    iblk0 V c 0 t (ix2 p k) = sums V c (ix2 (rowOf t p) k) := by
  obtain ⟨e0, e1, -⟩ := idx_facts t
  show V c main_v22 (((cfg0.win 0).blk t).view.emb (ix2 p k)) = V c main_v22 (ix2 (rowOf t p) k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 130 + 1 * k.val = k.val; omega

theorem read_factor (c : Dev nD) (t : Fin cfg0.N) (p : Fin 2000) :
    iblk0 V c 1 t (ix2 p (0 : Fin 1)) = factor V c (ix2 (rowOf t p) (0 : Fin 1)) := by
  obtain ⟨-, -, e0, e1, -⟩ := idx_facts t
  show V c main_v12 (((cfg0.win 1).blk t).view.emb (ix2 p (0 : Fin 1))) = V c main_v12 (ix2 (rowOf t p) (0 : Fin 1))
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

theorem read_feats (c : Dev nD) (t : Fin cfg0.N) (p : Fin 2000) (k : Fin 130) :
    iblk0 V c 2 t (ix2 p k) = feats V c (ix2 (rowOf t p) k) := by
  obtain ⟨-, -, -, -, e0, e1, -⟩ := idx_facts t
  show V c main_arg0 (((cfg0.win 2).blk t).view.emb (ix2 p k)) = V c main_arg0 (ix2 (rowOf t p) k)
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 130 + 1 * k.val = k.val; omega

theorem read_wl (c : Dev nD) (t : Fin cfg0.N) (k : Fin 130) (q : Fin 128) :
    iblk0 V c 3 t (ix2 k q) = wl V c (ix2 k q) := by
  obtain ⟨-, -, -, -, -, -, e0, e1, -⟩ := idx_facts t
  show V c main_arg2 (((cfg0.win 3).blk t).view.emb (ix2 k q)) = V c main_arg2 (ix2 k q)
  refine congrArg _ (funext fun a => Fin.ext ?_)
  match a with
  | ⟨0, _⟩ => show win0_3.index t (0 : Fin 2) * 130 + 1 * k.val = k.val; omega
  | ⟨1, _⟩ => show win0_3.index t (1 : Fin 2) * 128 + 1 * q.val = q.val; omega

theorem read_bl (c : Dev nD) (t : Fin cfg0.N) (q : Fin 128) :
    iblk0 V c 4 t (ix2 (0 : Fin 1) q) = blRow V c (ix2 (0 : Fin 1) q) := by
  obtain ⟨-, -, -, -, -, -, -, -, e0, e1, -⟩ := idx_facts t
  show V c main_v23 (((cfg0.win 4).blk t).view.emb (ix2 (0 : Fin 1) q)) = V c main_v23 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem read_wr (c : Dev nD) (t : Fin cfg0.N) (k : Fin 130) (q : Fin 128) :
    iblk0 V c 5 t (ix2 k q) = wr V c (ix2 k q) := by
  obtain ⟨-, -, -, -, -, -, -, -, -, -, e0, e1, -⟩ := idx_facts t
  show V c main_arg4 (((cfg0.win 5).blk t).view.emb (ix2 k q)) = V c main_arg4 (ix2 k q)
  refine congrArg _ (funext fun a => Fin.ext ?_)
  match a with
  | ⟨0, _⟩ => show win0_5.index t (0 : Fin 2) * 130 + 1 * k.val = k.val; omega
  | ⟨1, _⟩ => show win0_5.index t (1 : Fin 2) * 128 + 1 * q.val = q.val; omega

theorem read_g (c : Dev nD) (t : Fin cfg0.N) (q : Fin 128) :
    iblk0 V c 6 t (ix2 (0 : Fin 1) q) = gRow V c (ix2 (0 : Fin 1) q) := by
  obtain ⟨-, -, -, -, -, -, -, -, -, -, -, -, e0, e1, -⟩ := idx_facts t
  show V c main_v24 (((cfg0.win 6).blk t).view.emb (ix2 (0 : Fin 1) q)) = V c main_v24 (ix2 (0 : Fin 1) q)
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

theorem read_be (c : Dev nD) (t : Fin cfg0.N) (q : Fin 128) :
    iblk0 V c 7 t (ix2 (0 : Fin 1) q) = beRow V c (ix2 (0 : Fin 1) q) := by
  obtain ⟨-, -, -, -, -, -, -, -, -, -, -, -, -, -, e0, e1, -⟩ := idx_facts t
  show V c main_v25 (((cfg0.win 7).blk t).view.emb (ix2 (0 : Fin 1) q)) = V c main_v25 (ix2 (0 : Fin 1) q)
  refine congrArg _ (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

theorem read_rm (c : Dev nD) (t : Fin cfg0.N) (q : Fin 128) :
    iblk0 V c 8 t (ix2 (0 : Fin 1) q) = rmRow V c (ix2 (0 : Fin 1) q) := by
  obtain ⟨-, -, -, -, -, -, -, -, -, -, -, -, -, -, -, -, e0, e1, -⟩ := idx_facts t
  show V c main_v26 (((cfg0.win 8).blk t).view.emb (ix2 (0 : Fin 1) q)) = V c main_v26 (ix2 (0 : Fin 1) q)
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * q.val = q.val; omega

theorem read_rv (c : Dev nD) (t : Fin cfg0.N) (q : Fin 128) :
    iblk0 V c 9 t (ix2 (0 : Fin 1) q) = rvRow V c (ix2 (0 : Fin 1) q) := by
  obtain ⟨-, -, -, -, -, -, -, -, -, -, -, -, -, -, -, -, -, -, e0, e1, -⟩ := idx_facts t
  show V c main_v27 (((cfg0.win 9).blk t).view.emb (ix2 (0 : Fin 1) q)) = V c main_v27 (ix2 (0 : Fin 1) q)
  refine congrArg _ (funext fun a => Fin.ext ?_)
  match a with
  | ⟨0, _⟩ => show win0_9.index t (0 : Fin 2) * 1 + 1 * 0 = 0; omega
  | ⟨1, _⟩ => show win0_9.index t (1 : Fin 2) * 128 + 1 * q.val = q.val; omega

/-- Where entry (p, q) of the output's tile t lies in the output array: row t·2000 + p, column q. -/
theorem emb_out (t : Fin cfg0.N) (p : Fin 2000) (q : Fin 128) :
    ((cfg0.win 10).blk t).view.emb (ix2 p q) = ix2 (rowOf t p) q := by
  obtain ⟨-, -, -, -, -, -, -, -, -, -, -, -, -, -, -, -, -, -, -, -, e0, e1⟩ := idx_facts t
  refine funext fun a => Fin.ext ?_
  match a with
  | ⟨0, _⟩ => show win0_10.index t (0 : Fin 2) * 2000 + 1 * p.val = t.val * 2000 + p.val; omega
  | ⟨1, _⟩ => show win0_10.index t (1 : Fin 2) * 128 + 1 * q.val = q.val; omega

/-- WHAT POINT t WRITES BACK is tile t of the layer of the whole arrays. -/
theorem flushed_eq (c : Dev nD) (t : Fin cfg0.N) :
    (dat0 V c).flushed 10 t = ((cfg0.win 10).blk t).view.read (Elt Ideal) (out V c) := by
  show (cfg0.win 10).cut (grid0.coords t) ((dat0 V c).after 10 t) = _
  rw [after0_10]
  unfold out0_10
  rw [View.canon_unit_zero hz]
  simp only [View.ld_unit_zero (S := S2000x130) hz, View.ld_unit_zero (S := S2000x1) hz, View.ld_unit_zero (S := S130x128) hz,
    View.ld_unit_zero (S := S1x128) hz]
  funext j
  obtain ⟨p, q, rfl⟩ : ∃ (p : Fin 2000) (q : Fin 128), j = ix2 p q := ⟨j 0, j 1, eq_ix2 j⟩
  show k0_pay1 (k0_pay2 (iblk0 V c 0 t) (iblk0 V c 1 t) (iblk0 V c 2 t) (iblk0 V c 3 t) (iblk0 V c 5 t) (iblk0 V c 4 t)
      (iblk0 V c 6 t) (iblk0 V c 9 t) (iblk0 V c 8 t)) (k0_pay3 (iblk0 V c 7 t)) (ix2 p q)
    = out V c (((cfg0.win 10).blk t).view.emb (ix2 p q))
  rw [emb_out t p q]
  refine (pay_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p q).trans ?_
  unfold out
  rw [Cert.Sage.layer_apply]
  simp only [Cert.Sage.rowScale_apply, read_sums V c t, read_factor V c t, read_feats V c t, read_wl V c t, read_bl V c t, read_wr V c t, read_g V c t,
    read_be V c t, read_rm V c t, read_rv V c t]

/-! ## From the tiles to the array -/

/-- An index of the output array is in point t's tile iff each coordinate is in the tile's range on its axis. -/
theorem mem_blk (t : Fin cfg0.N) (i : S200000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v28).slice (win0_10.rect t)).set ↔ _
  rw [View.set_slice_whole, Rect.mem_set_unit]
  exact Iff.rfl

/-- Every index of the output array lies in some point's tile: row r in tile r / 2000. -/
theorem covered (i : S200000x128.Idx) :
    ∃ t : Fin cfg0.N, (cfg0.win 10).flush t = true ∧ i ∈ ((cfg0.win 10).blk t).view.set := by
  have hi0 : (i 0).val < 200000 := (i 0).isLt
  have hi1 : (i 1).val < 128 := (i 1).isLt
  have hN : (i 0).val / 2000 < cfg0.N := lt_of_lt_of_eq (by omega : (i 0).val / 2000 < 100) N_0.symm
  refine ⟨⟨(i 0).val / 2000, hN⟩, flush0_10 _, ?_⟩
  obtain ⟨-, -, -, -, -, -, -, -, -, -, -, -, -, -, -, -, -, -, -, -, e0, e1⟩ := idx_facts ⟨(i 0).val / 2000, hN⟩
  rw [mem_blk]
  intro a
  match a with
  | ⟨0, _⟩ =>
    show win0_10.index ⟨(i 0).val / 2000, hN⟩ (0 : Fin 2) * 2000 ≤ (i 0).val
      ∧ (i 0).val < win0_10.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_10.index ⟨(i 0).val / 2000, hN⟩ (1 : Fin 2) * 128 ≤ (i 1).val
      ∧ (i 1).val < win0_10.index ⟨(i 0).val / 2000, hN⟩ (1 : Fin 2) * 128 + 128
    rw [e1]; omega

/-- THE ARRAY after the region: the layer of the arrays the region read. -/
theorem final (c : Dev nD) : (dat0 V c).arrAt 10 cfg0.N = out V c :=
  (dat0 V c).arrAt_eq_of_cover 10 (out V c) (fun t _ => flushed_eq V c t) covered

end Cert.KernelIdeal.Layer1

end
-- ==== Proof.Region1.lean ====
/-
  The second layer's kernel region, read as a value: whatever the ten arrays it reads hold when the region is entered
  (`V`), the array it writes ends holding the normalised, rectified layer (`Cert.Sage.layer`) of them, with the
  neighbour mean of node n the row of sums of n times the per-node factor of n.

  Here the features are the first layer's 128 columns, so both weight matrices are 128×128. The region again walks
  the node axis in 100 tiles of 2000 rows: at tile t the body sees rows t·2000 … t·2000+1999 of the sums, of the
  per-node factor and of the features and the whole weight matrices and per-column rows, and stores the layer's tile
  (`Cert.Sage.tile_apply`); a row of the layer depends only on the same row of the sums, the factor and the
  features, so that tile is rows t·2000 … of the layer of the whole arrays, and the 100 tiles cover every row.
-/
import proofs.«157894_j8160437862402_1_alg».proof.Proof.Gen.KernelIdeal.Frame
import proofs.«157894_j8160437862402_1_alg».proof.Proof.LibSageLayer

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The arrays the region reads, by what they are -/

/-- The per-node sums of the neighbours' rows of the first layer's result. -/
abbrev sums (c : Dev nD) : FVec Ideal S200000x128 .f32 := V c main_v38
/-- The per-node factor, one column. -/
abbrev factor (c : Dev nD) : FVec Ideal S200000x1 .f32 := V c main_v12
/-- The first layer's result, this layer's features. -/
abbrev feats (c : Dev nD) : FVec Ideal S200000x128 .f32 := V c main_v28
/-- The weights applied to the neighbour mean, and to the node's own features. -/
abbrev wl (c : Dev nD) : FVec Ideal S128x128 .f32 := V c main_arg9
abbrev wr (c : Dev nD) : FVec Ideal S128x128 .f32 := V c main_arg11
/-- The bias, the scale, the shift, the running mean and the running variance, each as one row. -/
abbrev blRow (c : Dev nD) : FVec Ideal S1x128 .f32 := V c main_v39
abbrev gRow (c : Dev nD) : FVec Ideal S1x128 .f32 := V c main_v40
abbrev beRow (c : Dev nD) : FVec Ideal S1x128 .f32 := V c main_v41
abbrev rmRow (c : Dev nD) : FVec Ideal S1x128 .f32 := V c main_v42
abbrev rvRow (c : Dev nD) : FVec Ideal S1x128 .f32 := V c main_v43

/-- A one-row matrix read as the vector of its entries. -/
abbrev rowVec (r : FVec Ideal S1x128 .f32) : FVec Ideal S128 .f32 := fun u => r (ix2 (0 : Fin 1) (u 0))

/-- The neighbour means: each row of sums times its node's factor. -/
abbrev means (c : Dev nD) : FVec Ideal S200000x128 .f32 := Cert.Sage.rowScale (sums V c) (factor V c)

/-- WHAT THE REGION'S OUTPUT ARRAY ENDS HOLDING: the layer of the arrays it read. -/
def out (c : Dev nD) : FVec Ideal S200000x128 .f32 :=
  Cert.Sage.layer (means V c) (feats V c) (wl V c) (rowVec (blRow V c)) (wr V c) (rowVec (gRow V c)) (rowVec (beRow V c))
    (rowVec (rmRow V c)) (rowVec (rvRow V c))

/-! ## The tiles -/

theorem hz : (![0, 0] : Fin 2 → Nat) = fun _ => 0 := funext fun a => by fin_cases a <;> rfl

/-- The block index of every window at every grid point: the three row-tiled inputs and the output are at block
    (t, 0), the weights and the per-column rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

theorem point_lt (t : Fin cfg1.N) : t.val < 100 := lt_of_lt_of_eq t.isLt N_1

/-- Row p of tile t is row t·2000 + p of the whole array. -/
abbrev rowOf (t : Fin cfg1.N) (p : Fin 2000) : Fin 200000 :=
  ⟨t.val * 2000 + p.val, by have := point_lt t; have := p.isLt; omega⟩

/-- The body's stored value at a tile entry, over any loaded blocks: the layer's entry of the tile's rows. -/
theorem pay_apply (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (x6 x7 x8 x9 : Vec Ideal S1x128 .f32)
    (p : Fin 2000) (q : Fin 128) :
    k1_pay1 (k1_pay2 x0 x1 x2 x3 x5 x4 x6 x9 x8) x7 (ix2 p q)
      = Cert.Sage.entry (∑ k : Fin 128, (x0 (ix2 p k) * x1 (ix2 p (0 : Fin 1))) * x3 (ix2 k q)) (∑ k : Fin 128, x2 (ix2 p k) * x5 (ix2 k q))
          (x4 (ix2 (0 : Fin 1) q)) (x6 (ix2 (0 : Fin 1) q)) (x7 (ix2 (0 : Fin 1) q)) (x8 (ix2 (0 : Fin 1) q)) (x9 (ix2 (0 : Fin 1) q)) := by
  unfold k1_pay1 k1_pay2
  simp only [shapeCast_self]
  exact Cert.Sage.tile_apply (M := 2000) (K := 128) (H := 128) x0 x2 x1 x3 x5 x4 x6 x7 x8 x9 _ _ _ p q

/-! ### Each window's block at a point, read where it lies in its array -/

theorem read_sums (c : Dev nD) (t : Fin cfg1.N) (p : Fin 2000) (k : Fin 128) :
    iblk1 V c 0 t (ix2 p k) = sums V c (ix2 (rowOf t p) k) := by
  obtain ⟨e0, e1, -⟩ := idx_facts t
  show V c main_v38 (((cfg1.win 0).blk t).view.emb (ix2 p k)) = V c main_v38 (ix2 (rowOf t p) k)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem read_factor (c : Dev nD) (t : Fin cfg1.N) (p : Fin 2000) :
    iblk1 V c 1 t (ix2 p (0 : Fin 1)) = factor V c (ix2 (rowOf t p) (0 : Fin 1)) := by
  obtain ⟨-, -, e0, e1, -⟩ := idx_facts t
  show V c main_v12 (((cfg1.win 1).blk t).view.emb (ix2 p (0 : Fin 1))) = V c main_v12 (ix2 (rowOf t p) (0 : Fin 1))
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 1 + 1 * 0 = 0; omega

theorem read_feats (c : Dev nD) (t : Fin cfg1.N) (p : Fin 2000) (k : Fin 128) :
    iblk1 V c 2 t (ix2 p k) = feats V c (ix2 (rowOf t p) k) := by
  obtain ⟨-, -, -, -, e0, e1, -⟩ := idx_facts t
  show V c main_v28 (((cfg1.win 2).blk t).view.emb (ix2 p k)) = V c main_v28 (ix2 (rowOf t p) k)
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * k.val = k.val; omega

theorem read_wl (c : Dev nD) (t : Fin cfg1.N) (k : Fin 128) (q : Fin 128) :
    iblk1 V c 3 t (ix2 k q) = wl V c (ix2 k q) := by
  obtain ⟨-, -, -, -, -, -, e0, e1, -⟩ := idx_facts t
  show V c main_arg9 (((cfg1.win 3).blk t).view.emb (ix2 k q)) = V c main_arg9 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem read_bl (c : Dev nD) (t : Fin cfg1.N) (q : Fin 128) :
    iblk1 V c 4 t (ix2 (0 : Fin 1) q) = blRow V c (ix2 (0 : Fin 1) q) := by
  obtain ⟨-, -, -, -, -, -, -, -, e0, e1, -⟩ := idx_facts t
  show V c main_v39 (((cfg1.win 4).blk t).view.emb (ix2 (0 : Fin 1) q)) = V c main_v39 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem read_wr (c : Dev nD) (t : Fin cfg1.N) (k : Fin 128) (q : Fin 128) :
    iblk1 V c 5 t (ix2 k q) = wr V c (ix2 k q) := by
  obtain ⟨-, -, -, -, -, -, -, -, -, -, e0, e1, -⟩ := idx_facts t
  show V c main_arg11 (((cfg1.win 5).blk t).view.emb (ix2 k q)) = V c main_arg11 (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

theorem read_g (c : Dev nD) (t : Fin cfg1.N) (q : Fin 128) :
    iblk1 V c 6 t (ix2 (0 : Fin 1) q) = gRow V c (ix2 (0 : Fin 1) q) := by
  obtain ⟨-, -, -, -, -, -, -, -, -, -, -, -, e0, e1, -⟩ := idx_facts t
  show V c main_v40 (((cfg1.win 6).blk t).view.emb (ix2 (0 : Fin 1) q)) = V c main_v40 (ix2 (0 : Fin 1) q)
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * q.val = q.val; omega

theorem read_be (c : Dev nD) (t : Fin cfg1.N) (q : Fin 128) :
    iblk1 V c 7 t (ix2 (0 : Fin 1) q) = beRow V c (ix2 (0 : Fin 1) q) := by
  obtain ⟨-, -, -, -, -, -, -, -, -, -, -, -, -, -, e0, e1, -⟩ := idx_facts t
  show V c main_v41 (((cfg1.win 7).blk t).view.emb (ix2 (0 : Fin 1) q)) = V c main_v41 (ix2 (0 : Fin 1) q)
  refine congrArg _ (funext fun a => Fin.ext ?_)
  match a with
  | ⟨0, _⟩ => show win1_7.index t (0 : Fin 2) * 1 + 1 * 0 = 0; omega
  | ⟨1, _⟩ => show win1_7.index t (1 : Fin 2) * 128 + 1 * q.val = q.val; omega

theorem read_rm (c : Dev nD) (t : Fin cfg1.N) (q : Fin 128) :
    iblk1 V c 8 t (ix2 (0 : Fin 1) q) = rmRow V c (ix2 (0 : Fin 1) q) := by
  obtain ⟨-, -, -, -, -, -, -, -, -, -, -, -, -, -, -, -, e0, e1, -⟩ := idx_facts t
  show V c main_v42 (((cfg1.win 8).blk t).view.emb (ix2 (0 : Fin 1) q)) = V c main_v42 (ix2 (0 : Fin 1) q)
  refine congrArg _ (funext fun a => Fin.ext ?_)
  match a with
  | ⟨0, _⟩ => show win1_8.index t (0 : Fin 2) * 1 + 1 * 0 = 0; omega
  | ⟨1, _⟩ => show win1_8.index t (1 : Fin 2) * 128 + 1 * q.val = q.val; omega

theorem read_rv (c : Dev nD) (t : Fin cfg1.N) (q : Fin 128) :
    iblk1 V c 9 t (ix2 (0 : Fin 1) q) = rvRow V c (ix2 (0 : Fin 1) q) := by
  obtain ⟨-, -, -, -, -, -, -, -, -, -, -, -, -, -, -, -, -, -, e0, e1, -⟩ := idx_facts t
  show V c main_v43 (((cfg1.win 9).blk t).view.emb (ix2 (0 : Fin 1) q)) = V c main_v43 (ix2 (0 : Fin 1) q)
  refine congrArg _ (funext fun a => Fin.ext ?_)
  match a with
  | ⟨0, _⟩ => show win1_9.index t (0 : Fin 2) * 1 + 1 * 0 = 0; omega
  | ⟨1, _⟩ => show win1_9.index t (1 : Fin 2) * 128 + 1 * q.val = q.val; omega

/-- Where entry (p, q) of the output's tile t lies in the output array: row t·2000 + p, column q. -/
theorem emb_out (t : Fin cfg1.N) (p : Fin 2000) (q : Fin 128) :
    ((cfg1.win 10).blk t).view.emb (ix2 p q) = ix2 (rowOf t p) q := by
  obtain ⟨-, -, -, -, -, -, -, -, -, -, -, -, -, -, -, -, -, -, -, -, e0, e1⟩ := idx_facts t
  refine funext fun a => Fin.ext ?_
  match a with
  | ⟨0, _⟩ => show win1_10.index t (0 : Fin 2) * 2000 + 1 * p.val = t.val * 2000 + p.val; omega
  | ⟨1, _⟩ => show win1_10.index t (1 : Fin 2) * 128 + 1 * q.val = q.val; omega

/-- WHAT POINT t WRITES BACK is tile t of the layer of the whole arrays. -/
theorem flushed_eq (c : Dev nD) (t : Fin cfg1.N) :
    (dat1 V c).flushed 10 t = ((cfg1.win 10).blk t).view.read (Elt Ideal) (out V c) := by
  show (cfg1.win 10).cut (grid1.coords t) ((dat1 V c).after 10 t) = _
  rw [after1_10]
  unfold out1_10
  rw [View.canon_unit_zero hz]
  simp only [View.ld_unit_zero (S := S2000x128) hz, View.ld_unit_zero (S := S2000x1) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  show k1_pay1 (k1_pay2 (iblk1 V c 0 t) (iblk1 V c 1 t) (iblk1 V c 2 t) (iblk1 V c 3 t) (iblk1 V c 5 t) (iblk1 V c 4 t)
      (iblk1 V c 6 t) (iblk1 V c 9 t) (iblk1 V c 8 t)) (iblk1 V c 7 t) (ix2 p q)
    = out V c (((cfg1.win 10).blk t).view.emb (ix2 p q))
  rw [emb_out t p q]
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) p q).trans ?_
  unfold out
  rw [Cert.Sage.layer_apply]
  simp only [Cert.Sage.rowScale_apply, read_sums V c t, read_factor V c t, read_feats V c t, read_wl V c t, read_bl V c t, read_wr V c t, read_g V c t,
    read_be V c t, read_rm V c t, read_rv V c t]

/-! ## From the tiles to the array -/

/-- An index of the output array is in point t's tile iff each coordinate is in the tile's range on its axis. -/
theorem mem_blk (t : Fin cfg1.N) (i : S200000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v44).slice (win1_10.rect t)).set ↔ _
  rw [View.set_slice_whole, Rect.mem_set_unit]
  exact Iff.rfl

/-- Every index of the output array lies in some point's tile: row r in tile r / 2000. -/
theorem covered (i : S200000x128.Idx) :
    ∃ t : Fin cfg1.N, (cfg1.win 10).flush t = true ∧ i ∈ ((cfg1.win 10).blk t).view.set := by
  have hi0 : (i 0).val < 200000 := (i 0).isLt
  have hi1 : (i 1).val < 128 := (i 1).isLt
  have hN : (i 0).val / 2000 < cfg1.N := lt_of_lt_of_eq (by omega : (i 0).val / 2000 < 100) N_1.symm
  refine ⟨⟨(i 0).val / 2000, hN⟩, flush1_10 _, ?_⟩
  obtain ⟨-, -, -, -, -, -, -, -, -, -, -, -, -, -, -, -, -, -, -, -, e0, e1⟩ := idx_facts ⟨(i 0).val / 2000, hN⟩
  rw [mem_blk]
  intro a
  match a with
  | ⟨0, _⟩ =>
    show win1_10.index ⟨(i 0).val / 2000, hN⟩ (0 : Fin 2) * 2000 ≤ (i 0).val
      ∧ (i 0).val < win1_10.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, hN⟩ (1 : Fin 2) * 128 ≤ (i 1).val
      ∧ (i 1).val < win1_10.index ⟨(i 0).val / 2000, hN⟩ (1 : Fin 2) * 128 + 128
    rw [e1]; omega

/-- THE ARRAY after the region: the layer of the arrays the region read. -/
theorem final (c : Dev nD) : (dat1 V c).arrAt 10 cfg1.N = out V c :=
  (dat1 V c).arrAt_eq_of_cover 10 (out V c) (fun t _ => flushed_eq V c t) covered

end Cert.KernelIdeal.Layer2

end
-- ==== Proof.KernelFold.lean ====
/-
  The kernel program's result array as a function of the launch memory.

  Before the first region the host forms, from the 2×E edge words: the source words with a negative word wrapped by
  the node count, and the destination words, each as an E×1 column; the per-node sums of the gathered feature rows (a
  scatter-add of the rows gathered at the sources into the rows at the destinations); the per-node degree (a
  scatter-add of ones at the destinations) and the column 1 / max(degree, 1); and each per-column vector as one row.
  The first region leaves the layer of these (`Layer1.final`). Between the regions the host gathers and scatter-adds
  the first layer's result the same way and lays the second layer's vectors as rows; the second region leaves the
  layer of those (`Layer2.final`), reading the same reciprocal column, which the first region only read.
  Each array a region reads is found by walking the program back from the region's entry to the launch memory.
-/
import proofs.«157894_j8160437862402_1_alg».proof.Proof.Region0
import proofs.«157894_j8160437862402_1_alg».proof.Proof.Region1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.ShloMosaic.StableHlo
open Idealize.SL.Sem

/-! ## The host's values, named -/

/-- The source and the destination word of every edge. -/
def srcWords (e : IVec S2x600000 32) : IVec S600000 32 :=
  shapeCast S600000 (extractStridedSlice S1x600000 ![0, 0] e slices_S2x600000_S1x600000_0_0) shapeCasts_S1x600000_S600000
def dstWords (e : IVec S2x600000 32) : IVec S600000 32 :=
  shapeCast S600000 (extractStridedSlice S1x600000 ![1, 0] e slices_S2x600000_S1x600000_1_0) shapeCasts_S1x600000_S600000
/-- The destination words as a column of scatter indices. -/
def dstCol (e : IVec S2x600000 32) : IVec S600000x1 32 :=
  broadcastInDim S600000x1 ![0] bcast_S600000_S600000x1_0 (dstWords e)
/-- The source words, a negative one wrapped by the node count, as a column of gather indices. -/
def srcCol (e : IVec S2x600000 32) : IVec S600000x1 32 :=
  broadcastInDim S600000x1 ![0] bcast_S600000_S600000x1_0
    (select (cmpi .slt (srcWords e) (broadcastInDim S600000 ![] bcast_S_S600000 (constantI S_ 32 0#32)))
      (addi (srcWords e) (broadcastInDim S600000 ![] bcast_S_S600000 (constantI S_ 32 200000#32))) (srcWords e))
/-- The per-node sums of the neighbours' rows, for rows of 130 and of 128 entries. -/
def aggregate130 (x : FVec Ideal S200000x130 .f32) (e : IVec S2x600000 32) : FVec Ideal S200000x130 .f32 :=
  Host.scatterAdd scatter_S200000x130_S600000x1_S600000x130_1_0_0_1
    (broadcastInDim S200000x130 ![] bcast_S_S200000x130 (constant (F := Ideal) S_ .f32 0x00000000#32)) (dstCol e)
    (Host.gather gather_S200000x130_S600000x1_S600000x130_1_0_n_n_0_1_1130 x (srcCol e))
def aggregate128 (h : FVec Ideal S200000x128 .f32) (e : IVec S2x600000 32) : FVec Ideal S200000x128 .f32 :=
  Host.scatterAdd scatter_S200000x128_S600000x1_S600000x128_1_0_0_1
    (broadcastInDim S200000x128 ![] bcast_S_S200000x128 (constant (F := Ideal) S_ .f32 0x00000000#32)) (dstCol e)
    (Host.gather gather_S200000x128_S600000x1_S600000x128_1_0_n_n_0_1_1128 h (srcCol e))
/-- The per-node degree: ones added at the destinations. -/
def degree (e : IVec S2x600000 32) : FVec Ideal S200000 .f32 :=
  Host.scatterAdd scatter_S200000_S600000x1_S600000_n_0_0_1
    (broadcastInDim S200000 ![] bcast_S_S200000 (constant (F := Ideal) S_ .f32 0x00000000#32)) (dstCol e)
    (broadcastInDim S600000 ![] bcast_S_S600000 (constant (F := Ideal) S_ .f32 0x3F800000#32))
/-- The column 1 / max(degree, 1). -/
def recipCol (e : IVec S2x600000 32) : FVec Ideal S200000x1 .f32 :=
  shapeCast S200000x1
    (Host.divf (broadcastInDim S200000 ![] bcast_S_S200000 (constant (F := Ideal) S_ .f32 0x3F800000#32))
      (maximumf (degree e) (broadcastInDim S200000 ![] bcast_S_S200000 (constant (F := Ideal) S_ .f32 0x3F800000#32))))
    shapeCasts_S200000_S200000x1
/-- A per-column vector laid as one row. -/
def asRow (b : FVec Ideal S128 .f32) : FVec Ideal S1x128 .f32 := shapeCast S1x128 b shapeCasts_S128_S1x128

/-- A vector laid as one row and read back as a vector is the vector. -/
theorem rowVec_asRow (b : FVec Ideal S128 .f32) : Layer1.rowVec (asRow b) = b :=
  LibGraphConv.row_of_cast b shapeCasts_S128_S1x128

variable (m : (ℓ : Loc nD τ sig) → Buf (Elt Ideal) ℓ) (ρ : Dev nD → PrngReg)

/-- The edge words and the node features at launch. -/
abbrev E (c : Dev nD) : IVec S2x600000 32 := m ((c.tc : Thread nD τ).loc main_arg1)
abbrev X (c : Dev nD) : FVec Ideal S200000x130 .f32 := m ((c.tc : Thread nD τ).loc main_arg0)

/-! ## What the first region reads -/

set_option maxHeartbeats 4000000 in
theorem in1_sums (c : Dev nD) : V1 m ρ c main_v22 = aggregate130 (X m c) (E m c) := by
  show StableHlo.after hostOps0 (W0 m ρ c) (Proc.devRef .tc main_v22) = _
  after_results_simp
  rfl
set_option maxHeartbeats 4000000 in
theorem in1_factor (c : Dev nD) : V1 m ρ c main_v12 = recipCol (E m c) := by
  show StableHlo.after hostOps0 (W0 m ρ c) (Proc.devRef .tc main_v12) = _
  after_results_simp
  rfl
set_option maxHeartbeats 4000000 in
theorem in1_feats (c : Dev nD) : V1 m ρ c main_arg0 = X m c := by
  show StableHlo.after hostOps0 (W0 m ρ c) (Proc.devRef .tc main_arg0) = _
  after_results_simp
set_option maxHeartbeats 4000000 in
theorem in1_wl (c : Dev nD) : V1 m ρ c main_arg2 = m ((c.tc : Thread nD τ).loc main_arg2) := by
  show StableHlo.after hostOps0 (W0 m ρ c) (Proc.devRef .tc main_arg2) = _
  after_results_simp
set_option maxHeartbeats 4000000 in
theorem in1_wr (c : Dev nD) : V1 m ρ c main_arg4 = m ((c.tc : Thread nD τ).loc main_arg4) := by
  show StableHlo.after hostOps0 (W0 m ρ c) (Proc.devRef .tc main_arg4) = _
  after_results_simp
set_option maxHeartbeats 4000000 in
theorem in1_bl (c : Dev nD) : V1 m ρ c main_v23 = asRow (m ((c.tc : Thread nD τ).loc main_arg3)) := by
  show StableHlo.after hostOps0 (W0 m ρ c) (Proc.devRef .tc main_v23) = _
  after_results_simp
  rfl
set_option maxHeartbeats 4000000 in
theorem in1_g (c : Dev nD) : V1 m ρ c main_v24 = asRow (m ((c.tc : Thread nD τ).loc main_arg5)) := by
  show StableHlo.after hostOps0 (W0 m ρ c) (Proc.devRef .tc main_v24) = _
  after_results_simp
  rfl
set_option maxHeartbeats 4000000 in
theorem in1_be (c : Dev nD) : V1 m ρ c main_v25 = asRow (m ((c.tc : Thread nD τ).loc main_arg6)) := by
  show StableHlo.after hostOps0 (W0 m ρ c) (Proc.devRef .tc main_v25) = _
  after_results_simp
  rfl
set_option maxHeartbeats 4000000 in
theorem in1_rm (c : Dev nD) : V1 m ρ c main_v26 = asRow (m ((c.tc : Thread nD τ).loc main_arg7)) := by
  show StableHlo.after hostOps0 (W0 m ρ c) (Proc.devRef .tc main_v26) = _
  after_results_simp
  rfl
set_option maxHeartbeats 4000000 in
theorem in1_rv (c : Dev nD) : V1 m ρ c main_v27 = asRow (m ((c.tc : Thread nD τ).loc main_arg8)) := by
  show StableHlo.after hostOps0 (W0 m ρ c) (Proc.devRef .tc main_v27) = _
  after_results_simp
  rfl

/-- THE FIRST LAYER as the kernel program computes it, of the launch memory. -/
def hidden (c : Dev nD) : FVec Ideal S200000x128 .f32 :=
  Cert.Sage.layer (Cert.Sage.rowScale (aggregate130 (X m c) (E m c)) (recipCol (E m c))) (X m c)
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

theorem out1_eq (c : Dev nD) : Layer1.out (V1 m ρ) c = hidden m c := by
  have hmeans : Layer1.means (V1 m ρ) c = Cert.Sage.rowScale (aggregate130 (X m c) (E m c)) (recipCol (E m c)) := by
    show Cert.Sage.rowScale (V1 m ρ c main_v22) (V1 m ρ c main_v12) = _
    rw [in1_sums, in1_factor]
  unfold Layer1.out hidden
  rw [hmeans]
  show Cert.Sage.layer _ (V1 m ρ c main_arg0) (V1 m ρ c main_arg2) (Layer1.rowVec (V1 m ρ c main_v23)) (V1 m ρ c main_arg4)
      (Layer1.rowVec (V1 m ρ c main_v24)) (Layer1.rowVec (V1 m ρ c main_v25)) (Layer1.rowVec (V1 m ρ c main_v26))
      (Layer1.rowVec (V1 m ρ c main_v27)) = _
  rw [in1_feats, in1_wl, in1_wr, in1_bl, in1_g, in1_be, in1_rm, in1_rv]
  simp only [rowVec_asRow]

/-! ## What the second region reads -/

/-- After the first region its output array holds the first layer. -/
theorem mid_hidden (c : Dev nD) : W2 m ρ c (Proc.devRef .tc main_v28) = hidden m c :=
  (W2_arr m ρ c 10).trans ((Layer1.final (V1 m ρ) c).trans (out1_eq m ρ c))

/-- The reciprocal column, which the first region only reads, is as it entered. -/
theorem mid_factor (c : Dev nD) : W2 m ρ c (Proc.devRef .tc main_v12) = recipCol (E m c) :=
  (W2_arr m ρ c 1).trans (((dat0 (V1 m ρ) c).arrAt_in 1 rfl _).trans ((A_eq0 (V1 m ρ) c 1).trans (in1_factor m ρ c)))

set_option maxHeartbeats 4000000 in
theorem mid_src (c : Dev nD) : W2 m ρ c (Proc.devRef .tc main_v1) = srcWords (E m c) := by
  rw [W2_of_ne m ρ c main_v1 (by decide)]
  show StableHlo.after hostOps0 (W0 m ρ c) (Proc.devRef .tc main_v1) = _
  after_results_simp
  rfl
set_option maxHeartbeats 4000000 in
theorem mid_dst (c : Dev nD) : W2 m ρ c (Proc.devRef .tc main_v3) = dstWords (E m c) := by
  rw [W2_of_ne m ρ c main_v3 (by decide)]
  show StableHlo.after hostOps0 (W0 m ρ c) (Proc.devRef .tc main_v3) = _
  after_results_simp
  rfl

/-! ### The second layer's weights and vectors are the launch memory's: no host operation and no region writes them -/

set_option maxHeartbeats 4000000 in
theorem mid_arg9 (c : Dev nD) : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results_simp

set_option maxHeartbeats 4000000 in
theorem mid_arg10 (c : Dev nD) : W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  after_results_simp

set_option maxHeartbeats 4000000 in
theorem mid_arg11 (c : Dev nD) : W2 m ρ c (Proc.devRef .tc main_arg11) = m ((c.tc : Thread nD τ).loc main_arg11) := by
  rw [W2_of_ne m ρ c main_arg11 (by decide)]
  show StableHlo.after hostOps0 (W0 m ρ c) (Proc.devRef .tc main_arg11) = _
  after_results_simp

set_option maxHeartbeats 4000000 in
theorem mid_arg12 (c : Dev nD) : W2 m ρ c (Proc.devRef .tc main_arg12) = m ((c.tc : Thread nD τ).loc main_arg12) := by
  rw [W2_of_ne m ρ c main_arg12 (by decide)]
  show StableHlo.after hostOps0 (W0 m ρ c) (Proc.devRef .tc main_arg12) = _
  after_results_simp

set_option maxHeartbeats 4000000 in
theorem mid_arg13 (c : Dev nD) : W2 m ρ c (Proc.devRef .tc main_arg13) = m ((c.tc : Thread nD τ).loc main_arg13) := by
  rw [W2_of_ne m ρ c main_arg13 (by decide)]
  show StableHlo.after hostOps0 (W0 m ρ c) (Proc.devRef .tc main_arg13) = _
  after_results_simp

set_option maxHeartbeats 4000000 in
theorem mid_arg14 (c : Dev nD) : W2 m ρ c (Proc.devRef .tc main_arg14) = m ((c.tc : Thread nD τ).loc main_arg14) := by
  rw [W2_of_ne m ρ c main_arg14 (by decide)]
  show StableHlo.after hostOps0 (W0 m ρ c) (Proc.devRef .tc main_arg14) = _
  after_results_simp

set_option maxHeartbeats 4000000 in
theorem mid_arg15 (c : Dev nD) : W2 m ρ c (Proc.devRef .tc main_arg15) = m ((c.tc : Thread nD τ).loc main_arg15) := by
  rw [W2_of_ne m ρ c main_arg15 (by decide)]
  show StableHlo.after hostOps0 (W0 m ρ c) (Proc.devRef .tc main_arg15) = _
  after_results_simp

set_option maxHeartbeats 4000000 in
theorem in2_sums (c : Dev nD) : V3 m ρ c main_v38 = aggregate128 (hidden m c) (E m c) := by
  show StableHlo.after hostOps1 (W2 m ρ c) (Proc.devRef .tc main_v38) = _
  after_results_simp
  rw [mid_hidden, mid_src, mid_dst]
  rfl
set_option maxHeartbeats 4000000 in
theorem in2_factor (c : Dev nD) : V3 m ρ c main_v12 = recipCol (E m c) := by
  show StableHlo.after hostOps1 (W2 m ρ c) (Proc.devRef .tc main_v12) = _
  after_results_simp
  exact mid_factor m ρ c
set_option maxHeartbeats 4000000 in
theorem in2_feats (c : Dev nD) : V3 m ρ c main_v28 = hidden m c := by
  show StableHlo.after hostOps1 (W2 m ρ c) (Proc.devRef .tc main_v28) = _
  after_results_simp
  exact mid_hidden m ρ c
set_option maxHeartbeats 4000000 in
theorem in2_wl (c : Dev nD) : V3 m ρ c main_arg9 = m ((c.tc : Thread nD τ).loc main_arg9) := by
  show StableHlo.after hostOps1 (W2 m ρ c) (Proc.devRef .tc main_arg9) = _
  after_results_simp
  exact mid_arg9 m ρ c
set_option maxHeartbeats 4000000 in
theorem in2_wr (c : Dev nD) : V3 m ρ c main_arg11 = m ((c.tc : Thread nD τ).loc main_arg11) := by
  show StableHlo.after hostOps1 (W2 m ρ c) (Proc.devRef .tc main_arg11) = _
  after_results_simp
  exact mid_arg11 m ρ c
set_option maxHeartbeats 4000000 in
theorem in2_bl (c : Dev nD) : V3 m ρ c main_v39 = asRow (m ((c.tc : Thread nD τ).loc main_arg10)) := by
  show StableHlo.after hostOps1 (W2 m ρ c) (Proc.devRef .tc main_v39) = _
  after_results_simp
  rw [mid_arg10]
  rfl
set_option maxHeartbeats 4000000 in
theorem in2_g (c : Dev nD) : V3 m ρ c main_v40 = asRow (m ((c.tc : Thread nD τ).loc main_arg12)) := by
  show StableHlo.after hostOps1 (W2 m ρ c) (Proc.devRef .tc main_v40) = _
  after_results_simp
  rw [mid_arg12]
  rfl
set_option maxHeartbeats 4000000 in
theorem in2_be (c : Dev nD) : V3 m ρ c main_v41 = asRow (m ((c.tc : Thread nD τ).loc main_arg13)) := by
  show StableHlo.after hostOps1 (W2 m ρ c) (Proc.devRef .tc main_v41) = _
  after_results_simp
  rw [mid_arg13]
  rfl
set_option maxHeartbeats 4000000 in
theorem in2_rm (c : Dev nD) : V3 m ρ c main_v42 = asRow (m ((c.tc : Thread nD τ).loc main_arg14)) := by
  show StableHlo.after hostOps1 (W2 m ρ c) (Proc.devRef .tc main_v42) = _
  after_results_simp
  rw [mid_arg14]
  rfl
set_option maxHeartbeats 4000000 in
theorem in2_rv (c : Dev nD) : V3 m ρ c main_v43 = asRow (m ((c.tc : Thread nD τ).loc main_arg15)) := by
  show StableHlo.after hostOps1 (W2 m ρ c) (Proc.devRef .tc main_v43) = _
  after_results_simp
  rw [mid_arg15]
  rfl

theorem rowVec_asRow2 (b : FVec Ideal S128 .f32) : Layer2.rowVec (asRow b) = b :=
  LibGraphConv.row_of_cast b shapeCasts_S128_S1x128

/-- THE SECOND LAYER as the kernel program computes it, of the launch memory: the layer of the first layer's result,
    its neighbour sums and the same reciprocal column. -/
def result (c : Dev nD) : FVec Ideal S200000x128 .f32 :=
  Cert.Sage.layer (Cert.Sage.rowScale (aggregate128 (hidden m c) (E m c)) (recipCol (E m c))) (hidden m c)
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15))

theorem out2_eq (c : Dev nD) : Layer2.out (V3 m ρ) c = result m c := by
  have hmeans : Layer2.means (V3 m ρ) c = Cert.Sage.rowScale (aggregate128 (hidden m c) (E m c)) (recipCol (E m c)) := by
    show Cert.Sage.rowScale (V3 m ρ c main_v38) (V3 m ρ c main_v12) = _
    rw [in2_sums, in2_factor]
  unfold Layer2.out result
  rw [hmeans]
  show Cert.Sage.layer _ (V3 m ρ c main_v28) (V3 m ρ c main_arg9) (Layer2.rowVec (V3 m ρ c main_v39)) (V3 m ρ c main_arg11)
      (Layer2.rowVec (V3 m ρ c main_v40)) (Layer2.rowVec (V3 m ρ c main_v41)) (Layer2.rowVec (V3 m ρ c main_v42))
      (Layer2.rowVec (V3 m ρ c main_v43)) = _
  rw [in2_feats, in2_wl, in2_wr, in2_bl, in2_g, in2_be, in2_rm, in2_rv]
  simp only [rowVec_asRow2]

/-- THE RESULT ARRAY after the run. -/
theorem result_at (c : Dev nD) : W4 m ρ c (Proc.devRef .tc main_v44) = result m c :=
  (W4_arr m ρ c 10).trans ((Layer2.final (V3 m ρ) c).trans (out2_eq m ρ c))

end Cert.KernelIdeal.Fold

end
-- ==== Proof.RefLayers.lean ====
/-
  The reference's two layers, read at an index.

  Each layer of the reference is: the neighbour means (the per-node sums divided by the per-node count clamped below at
  one, left here as the array the program computes) times one weight matrix, plus the bias; plus the node features
  times the other weight matrix; minus the running mean; times scale · rsqrt(running variance + ε); plus the shift; and
  the maximum with zero. Entry (p, q) of it reads row p of the means and of the features, column q of the two weight
  matrices and entry q of the five vectors: it is the layer `Cert.Sage.layer`, whose two additions are grouped the
  other way round (`Cert.Sage.entry_regroup`). The second layer reads the first layer's result as its features.
-/
import proofs.«157894_j8160437862402_1_alg».proof.Proof.Gen.ReferenceIdeal.Run
import proofs.«157894_j8160437862402_1_alg».proof.Proof.Gen.ReferenceIdeal.Read
import proofs.«157894_j8160437862402_1_alg».proof.Proof.LibSageLayer

noncomputable section

namespace Cert.ReferenceIdeal.Layers

open Cert.ReferenceIdeal Cert.ReferenceIdeal.Read Idealize.ShloMosaic Idealize.ShloMosaic.ValueIdx

/-- THE FIRST LAYER of the reference is the layer of its neighbour means and the node features. -/
theorem layer1 (x0 : (⟨S200000x130, .f32⟩ : BufTy).Contents (Elt Ideal)) (x1 : (⟨S2x600000, .i32⟩ : BufTy).Contents (Elt Ideal))
    (x2 : (⟨S130x128, .f32⟩ : BufTy).Contents (Elt Ideal)) (x3 : (⟨S128, .f32⟩ : BufTy).Contents (Elt Ideal))
    (x4 : (⟨S130x128, .f32⟩ : BufTy).Contents (Elt Ideal)) (x5 x6 x7 x8 : (⟨S128, .f32⟩ : BufTy).Contents (Elt Ideal)) :
    val_main_v41 (F := Ideal) x0 x1 x2 x3 x4 x5 x6 x7 x8
      = Cert.Sage.layer (val_main_v21 (F := Ideal) x0 x1) x0 x2 x3 x4 x5 x6 x7 x8 := by
  funext i
  obtain ⟨p, q, rfl⟩ : ∃ (p : Fin 200000) (q : Fin 128), i = ix2 p q := ⟨i 0, i 1, eq_ix2 i⟩
  rw [Cert.Sage.layer_apply, ← Cert.Sage.entry_regroup]
  rw [val_main_v41_apply, val_main_v40_apply, val_main_v37_apply, val_main_v30_apply, val_main_v27_apply, val_main_v25_apply,
    val_main_v22_apply, val_main_v26_apply, val_main_v24_apply, val_main_v23_apply, val_main_v29_apply, val_main_v28_apply,
    val_main_v36_apply, val_main_v35_apply, val_main_v34_apply, val_main_v33_apply, val_main_v32_apply, val_main_v31_apply,
    val_main_cst_4_apply, val_main_v39_apply, val_main_v38_apply, val_main_call0_v0_apply, val_main_call0_cst_apply]
  -- which entries of the operands an entry (p, q) reads
  have hl : ∀ k : Fin 130, lidx_main_v22 (ix2 p q) k = ix2 p k := fun k => funext fun a => Fin.ext (by
    match a with | ⟨0, _⟩ => rfl | ⟨1, _⟩ => rfl)
  have hr : ∀ k : Fin 130, ridx_main_v22 (ix2 p q) k = ix2 k q := fun k => funext fun a => Fin.ext (by
    match a with | ⟨0, _⟩ => rfl | ⟨1, _⟩ => rfl)
  have hl' : ∀ k : Fin 130, lidx_main_v26 (ix2 p q) k = ix2 p k := fun k => funext fun a => Fin.ext (by
    match a with | ⟨0, _⟩ => rfl | ⟨1, _⟩ => rfl)
  have hr' : ∀ k : Fin 130, ridx_main_v26 (ix2 p q) k = ix2 k q := fun k => funext fun a => Fin.ext (by
    match a with | ⟨0, _⟩ => rfl | ⟨1, _⟩ => rfl)
  have h3 : idx_main_v23 (idx_main_v24 (ix2 p q)) = ix1 q := funext fun a => Fin.ext (by match a with | ⟨0, _⟩ => rfl)
  have h7 : idx_main_v28 (idx_main_v29 (ix2 p q)) = ix1 q := funext fun a => Fin.ext (by match a with | ⟨0, _⟩ => rfl)
  have h5 : idx_main_v35 (idx_main_v36 (ix2 p q)) = ix1 q := funext fun a => Fin.ext (by match a with | ⟨0, _⟩ => rfl)
  have h6 : idx_main_v38 (idx_main_v39 (ix2 p q)) = ix1 q := funext fun a => Fin.ext (by match a with | ⟨0, _⟩ => rfl)
  simp only [hl, hr, hl', hr', h3, h7, h5, h6, Ideal.addf_def, Ideal.subf_def, Ideal.mulf_def, Ideal.maximumf_def,
    Ideal.hostUnary_rsqrt_def, Ideal.ofBits_def, Ideal.ofBits_zero_f32]

/-- THE SECOND LAYER of the reference is the layer of its neighbour means of the first layer's result and that result. -/
theorem layer2 (x0 : (⟨S200000x130, .f32⟩ : BufTy).Contents (Elt Ideal)) (x1 : (⟨S2x600000, .i32⟩ : BufTy).Contents (Elt Ideal))
    (x2 : (⟨S130x128, .f32⟩ : BufTy).Contents (Elt Ideal)) (x3 : (⟨S128, .f32⟩ : BufTy).Contents (Elt Ideal))
    (x4 : (⟨S130x128, .f32⟩ : BufTy).Contents (Elt Ideal)) (x5 x6 x7 x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 x13 x14 x15 : (⟨S128, .f32⟩ : BufTy).Contents (Elt Ideal)) :
    val_main_v79 (F := Ideal) x0 x1 x2 x3 x4 x5 x6 x7 x8 x9 x10 x11 x12 x13 x14 x15
      = Cert.Sage.layer (val_main_v59 (F := Ideal) x0 x1 x2 x3 x4 x5 x6 x7 x8) (val_main_v41 (F := Ideal) x0 x1 x2 x3 x4 x5 x6 x7 x8) x9 x10 x11 x12 x13 x14 x15 := by
  funext i
  obtain ⟨p, q, rfl⟩ : ∃ (p : Fin 200000) (q : Fin 128), i = ix2 p q := ⟨i 0, i 1, eq_ix2 i⟩
  rw [Cert.Sage.layer_apply, ← Cert.Sage.entry_regroup]
  rw [val_main_v79_apply, val_main_v78_apply, val_main_v75_apply, val_main_v68_apply, val_main_v65_apply, val_main_v63_apply,
    val_main_v60_apply, val_main_v64_apply, val_main_v62_apply, val_main_v61_apply, val_main_v67_apply, val_main_v66_apply,
    val_main_v74_apply, val_main_v73_apply, val_main_v72_apply, val_main_v71_apply, val_main_v70_apply, val_main_v69_apply,
    val_main_cst_11_apply, val_main_v77_apply, val_main_v76_apply, val_main_call1_v0_apply, val_main_call1_cst_apply]
  have hl : ∀ k : Fin 128, lidx_main_v60 (ix2 p q) k = ix2 p k := fun k => funext fun a => Fin.ext (by
    match a with | ⟨0, _⟩ => rfl | ⟨1, _⟩ => rfl)
  have hr : ∀ k : Fin 128, ridx_main_v60 (ix2 p q) k = ix2 k q := fun k => funext fun a => Fin.ext (by
    match a with | ⟨0, _⟩ => rfl | ⟨1, _⟩ => rfl)
  have hl' : ∀ k : Fin 128, lidx_main_v64 (ix2 p q) k = ix2 p k := fun k => funext fun a => Fin.ext (by
    match a with | ⟨0, _⟩ => rfl | ⟨1, _⟩ => rfl)
  have hr' : ∀ k : Fin 128, ridx_main_v64 (ix2 p q) k = ix2 k q := fun k => funext fun a => Fin.ext (by
    match a with | ⟨0, _⟩ => rfl | ⟨1, _⟩ => rfl)
  have h10 : idx_main_v61 (idx_main_v62 (ix2 p q)) = ix1 q := funext fun a => Fin.ext (by match a with | ⟨0, _⟩ => rfl)
  have h14 : idx_main_v66 (idx_main_v67 (ix2 p q)) = ix1 q := funext fun a => Fin.ext (by match a with | ⟨0, _⟩ => rfl)
  have h12 : idx_main_v73 (idx_main_v74 (ix2 p q)) = ix1 q := funext fun a => Fin.ext (by match a with | ⟨0, _⟩ => rfl)
  have h13 : idx_main_v76 (idx_main_v77 (ix2 p q)) = ix1 q := funext fun a => Fin.ext (by match a with | ⟨0, _⟩ => rfl)
  simp only [hl, hr, hl', hr', h10, h14, h12, h13, Ideal.addf_def, Ideal.subf_def, Ideal.mulf_def, Ideal.maximumf_def,
    Ideal.hostUnary_rsqrt_def, Ideal.ofBits_def, Ideal.ofBits_zero_f32]

end Cert.ReferenceIdeal.Layers

end
-- ==== Proof.LibSegCount.lean ====
/-
  A vector scatter-add is a sum per segment.

  A host scatter-add whose updates are the `N` entries of a vector, entry `n` added into entry `idx n` of an
  operand vector of length `G` (the update has no window axis, the operand's one axis is scattered and inserted, the
  index vector lies on axis 1 of the `N × 1` indices), leaves at `g`, at the exact values, the operand's entry plus
  the sum of `upd n` over the entries `n` whose index word, read signed, is `g`. Update entry `n` lands at its index
  word read signed when that lies in `[0, G)` and nowhere otherwise. So the update entries landing at `g` are the
  entries whose index word is `g`, and the filtered sum over the update indices is a conditional sum over `n`.
  With every update equal to one this counts the entries of each segment.
-/
import Idealize.ShloMosaic.PureOps.Ideal
import Idealize.ShloMosaic.Lib.ValueIdx

noncomputable section

namespace Cert.LibSegCount

open Idealize.ShloMosaic Idealize.ShloMosaic.ValueIdx

/-- The dimension numbers of a vector scatter: updates of length `N` into an operand of length `G`, indices `N × 1`;
    the update has no window axis, the operand's axis 0 is scattered and inserted, the index vector lies on axis 1. -/
abbrev vecDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable {G N w : Nat} (wf : ScatterDims.WF ⟨1, ![G]⟩ ⟨2, ![N, 1]⟩ ⟨1, ![N]⟩ [] [0] [0] 1)

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the operand's axis the window starts at the index word of the update's entry, read signed. -/
theorem vecDims_start0 (j : (⟨1, ![N]⟩ : Shape).Idx) (idx : IVec ⟨2, ![N, 1]⟩ w) :
    (vecDims G N wf).start j idx (0 : Fin 1) = (idx (ix2 (j 0) 0)).toInt := by
  unfold ScatterDims.start
  have h : (0 : Fin 1) ∈ (vecDims G N wf).scatterDimsToOperandDims := by
    show (0 : Fin 1) ∈ [(0 : Fin 1)]
    exact List.mem_singleton.2 rfl
  rw [dif_pos h]
  congr 2
  funext b
  match b with
  | ⟨0, _⟩ => rfl
  | ⟨1, _⟩ => rfl

/-- The operand's axis is an inserted one: its window coordinate is zero. -/
theorem vecDims_window0 (j : (⟨1, ![N]⟩ : Shape).Idx) :
    (vecDims G N wf).window j (0 : Fin 1) = 0 := by
  unfold ScatterDims.window
  have h : ¬ (0 : Fin 1) ∈ (vecDims G N wf).sKept := by
    show ¬ (0 : Fin 1) ∈ ([] : List (Fin 1))
    exact List.not_mem_nil
  rw [dif_neg h]

/-- WHERE AN UPDATE LANDS. Update entry `n` lands at `g` exactly when its index word, read signed, is `g`: the landing
    place is the signed word itself (the start plus a zero window coordinate), kept only when it lies in `[0, G)`. -/
theorem vecDims_resultIdx (n : Fin N) (idx : IVec ⟨2, ![N, 1]⟩ w) (g : Fin G) :
    (vecDims G N wf).resultIdx? (ix1 n) idx = some (ix1 g) ↔ (idx (ix2 n 0)).toInt = (g.val : Int) := by
  have hs0 : (vecDims G N wf).start (ix1 n) idx (0 : Fin 1) = (idx (ix2 n 0)).toInt :=
    vecDims_start0 wf (ix1 n) idx
  have hw0 : (vecDims G N wf).window (ix1 n) (0 : Fin 1) = 0 := vecDims_window0 wf (ix1 n)
  have hg : g.val < G := g.isLt
  generalize (idx (ix2 n 0)).toInt = t at hs0 ⊢
  unfold ScatterDims.resultIdx?
  split
  · rename_i h
    have h0 : 0 ≤ (vecDims G N wf).start (ix1 n) idx (0 : Fin 1) + (vecDims G N wf).window (ix1 n) (0 : Fin 1)
        ∧ (vecDims G N wf).start (ix1 n) idx (0 : Fin 1) + (vecDims G N wf).window (ix1 n) (0 : Fin 1)
            < ((G : ℕ) : Int) := h 0
    rw [hs0, hw0] at h0
    rw [Option.some.injEq]
    constructor
    · intro hf
      have e0 := congrArg Fin.val (congrFun hf (0 : Fin 1))
      change ((vecDims G N wf).start (ix1 n) idx (0 : Fin 1)
        + (vecDims G N wf).window (ix1 n) (0 : Fin 1)).toNat = g.val at e0
      rw [hs0, hw0] at e0
      omega
    · intro ht
      funext a
      match a with
      | ⟨0, _⟩ =>
        apply Fin.ext
        show ((vecDims G N wf).start (ix1 n) idx (0 : Fin 1)
          + (vecDims G N wf).window (ix1 n) (0 : Fin 1)).toNat = g.val
        rw [hs0, hw0]; omega
  · rename_i h
    constructor
    · intro hf; cases hf
    · intro ht
      exfalso
      apply h
      intro a
      match a with
      | ⟨0, _⟩ =>
        show 0 ≤ (vecDims G N wf).start (ix1 n) idx (0 : Fin 1) + (vecDims G N wf).window (ix1 n) (0 : Fin 1)
          ∧ (vecDims G N wf).start (ix1 n) idx (0 : Fin 1) + (vecDims G N wf).window (ix1 n) (0 : Fin 1)
              < ((G : ℕ) : Int)
        rw [hs0, hw0]; omega

/-- A VECTOR SCATTER-ADD IS A SUM PER SEGMENT. At `g` the result is the operand's entry plus the sum of `upd n` over
    the entries `n` whose index word, read signed, is `g`: the sum over the update entries landing at `g`. -/
theorem hostScatterAdd_vecDims_apply (x : (⟨1, ![G]⟩ : Shape).Idx → EReal) (idx : IVec ⟨2, ![N, 1]⟩ w)
    (upd : (⟨1, ![N]⟩ : Shape).Idx → EReal) (g : Fin G) :
    Ideal.hostScatterAdd (vecDims G N wf) x idx upd (ix1 g)
      = x (ix1 g) + ∑ n : Fin N, if (idx (ix2 n 0)).toInt = (g.val : Int) then upd (ix1 n) else 0 := by
  unfold Ideal.hostScatterAdd
  congr 1
  rw [Finset.sum_filter, sum_idx1]
  refine Finset.sum_congr rfl fun n _ => ?_
  simp only [vecDims_resultIdx wf]

end Cert.LibSegCount

end
-- ==== Proof.LibPoolScatter.lean ====
/-
  A row scatter-add is a sum per segment.

  A host scatter-add whose updates are the `N` rows of an `N × C` array, row `n` added into row `idx n` of a `G × C`
  operand (update axis 1 a window axis, operand axis 0 scattered and inserted, the index vector on axis 1 of the
  `N × 1` indices), leaves at `(g, j)`, at the exact values, the operand's entry plus the sum of `upd n j` over the rows
  `n` whose index word, read signed, is `g`. Update entry `(n, j')` lands at `(idx n read signed, j')` when that row lies
  in `[0, G)` and nowhere otherwise; the column is never moved. So the update entries landing at `(g, j)` are the entries
  `(n, j)` of the rows with index word `g`, and the filtered sum over the `N × C` update indices is a sum over rows.
-/
import Idealize.ShloMosaic.PureOps.Ideal
import Idealize.ShloMosaic.Lib.ValueIdx

noncomputable section

namespace Cert.LibPoolScatter

open Idealize.ShloMosaic Idealize.ShloMosaic.ValueIdx

/-- The dimension numbers of a row scatter: updates `N × C` into an operand `G × C`, indices `N × 1`; the update's
    axis 1 is a window axis, the operand's axis 0 is scattered and inserted, the index vector lies on axis 1. -/
abbrev rowDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C w : Nat} (wf : ScatterDims.WF ⟨2, ![G, C]⟩ ⟨2, ![N, 1]⟩ ⟨2, ![N, C]⟩ [1] [0] [0] 1)

/-- On the scattered axis the window starts at the index word of the update's row, read signed. -/
theorem rowDims_start0 (j : (⟨2, ![N, C]⟩ : Shape).Idx) (idx : IVec ⟨2, ![N, 1]⟩ w) :
    (rowDims G N C wf).start j idx (0 : Fin 2) = (idx (ix2 (j 0) 0)).toInt := by
  unfold ScatterDims.start
  have h : (0 : Fin 2) ∈ (rowDims G N C wf).scatterDimsToOperandDims := by
    show (0 : Fin 2) ∈ [(0 : Fin 2)]
    exact List.mem_singleton.2 rfl
  rw [dif_pos h]
  congr 2
  funext b
  match b with
  | ⟨0, _⟩ => rfl
  | ⟨1, _⟩ => rfl

/-- On the window axis the start is zero: the index map does not name it. -/
theorem rowDims_start1 (j : (⟨2, ![N, C]⟩ : Shape).Idx) (idx : IVec ⟨2, ![N, 1]⟩ w) :
    (rowDims G N C wf).start j idx (1 : Fin 2) = 0 := by
  unfold ScatterDims.start
  have h : ¬ (1 : Fin 2) ∈ (rowDims G N C wf).scatterDimsToOperandDims := by
    show ¬ (1 : Fin 2) ∈ [(0 : Fin 2)]
    decide
  rw [dif_neg h]

/-- The scattered axis is an inserted one: its window coordinate is zero. -/
theorem rowDims_window0 (j : (⟨2, ![N, C]⟩ : Shape).Idx) :
    (rowDims G N C wf).window j (0 : Fin 2) = 0 := by
  unfold ScatterDims.window
  have h : ¬ (0 : Fin 2) ∈ (rowDims G N C wf).sKept := by
    show ¬ (0 : Fin 2) ∈ [(1 : Fin 2)]
    decide
  rw [dif_neg h]

/-- On the window axis the window coordinate is the update's column. -/
theorem rowDims_window1 (j : (⟨2, ![N, C]⟩ : Shape).Idx) :
    (rowDims G N C wf).window j (1 : Fin 2) = (j 1).val := by
  unfold ScatterDims.window
  have h : (1 : Fin 2) ∈ (rowDims G N C wf).sKept := by
    show (1 : Fin 2) ∈ [(1 : Fin 2)]
    exact List.mem_singleton.2 rfl
  rw [dif_pos h]
  rfl

/-- WHERE AN UPDATE LANDS. Update entry `(n, j')` lands at `(g, j)` exactly when row `n`'s index word, read signed,
    is `g` and the columns agree: the landing row is the signed word itself (the start plus a zero window coordinate),
    kept only when it lies in `[0, G)`, and the landing column is `j'` (a zero start plus the column), always inside. -/
theorem rowDims_resultIdx (n : Fin N) (j' : Fin C) (idx : IVec ⟨2, ![N, 1]⟩ w) (g : Fin G) (j : Fin C) :
    (rowDims G N C wf).resultIdx? (ix2 n j') idx = some (ix2 g j)
      ↔ ((idx (ix2 n 0)).toInt = (g.val : Int) ∧ j' = j) := by
  have hs0 : (rowDims G N C wf).start (ix2 n j') idx (0 : Fin 2) = (idx (ix2 n 0)).toInt :=
    rowDims_start0 wf (ix2 n j') idx
  have hs1 : (rowDims G N C wf).start (ix2 n j') idx (1 : Fin 2) = 0 := rowDims_start1 wf (ix2 n j') idx
  have hw0 : (rowDims G N C wf).window (ix2 n j') (0 : Fin 2) = 0 := rowDims_window0 wf (ix2 n j')
  have hw1 : (rowDims G N C wf).window (ix2 n j') (1 : Fin 2) = j'.val := rowDims_window1 wf (ix2 n j')
  have hg : g.val < G := g.isLt
  have hj' : j'.val < C := j'.isLt
  generalize (idx (ix2 n 0)).toInt = t at hs0 ⊢
  unfold ScatterDims.resultIdx?
  split
  · rename_i h
    have h0 : 0 ≤ (rowDims G N C wf).start (ix2 n j') idx (0 : Fin 2) + (rowDims G N C wf).window (ix2 n j') (0 : Fin 2)
        ∧ (rowDims G N C wf).start (ix2 n j') idx (0 : Fin 2) + (rowDims G N C wf).window (ix2 n j') (0 : Fin 2)
            < ((G : ℕ) : Int) := h 0
    rw [hs0, hw0] at h0
    rw [Option.some.injEq]
    constructor
    · intro hf
      have e0 := congrArg Fin.val (congrFun hf (0 : Fin 2))
      have e1 := congrArg Fin.val (congrFun hf (1 : Fin 2))
      change ((rowDims G N C wf).start (ix2 n j') idx (0 : Fin 2)
        + (rowDims G N C wf).window (ix2 n j') (0 : Fin 2)).toNat = g.val at e0
      change ((rowDims G N C wf).start (ix2 n j') idx (1 : Fin 2)
        + (rowDims G N C wf).window (ix2 n j') (1 : Fin 2)).toNat = j.val at e1
      rw [hs0, hw0] at e0
      rw [hs1, hw1] at e1
      refine ⟨by omega, Fin.ext (by omega)⟩
    · rintro ⟨ht, rfl⟩
      funext a
      match a with
      | ⟨0, _⟩ =>
        apply Fin.ext
        show ((rowDims G N C wf).start (ix2 n j') idx (0 : Fin 2)
          + (rowDims G N C wf).window (ix2 n j') (0 : Fin 2)).toNat = g.val
        rw [hs0, hw0]; omega
      | ⟨1, _⟩ =>
        apply Fin.ext
        show ((rowDims G N C wf).start (ix2 n j') idx (1 : Fin 2)
          + (rowDims G N C wf).window (ix2 n j') (1 : Fin 2)).toNat = j'.val
        rw [hs1, hw1]; omega
  · rename_i h
    constructor
    · intro hf; cases hf
    · rintro ⟨ht, rfl⟩
      exfalso
      apply h
      intro a
      match a with
      | ⟨0, _⟩ =>
        show 0 ≤ (rowDims G N C wf).start (ix2 n j') idx (0 : Fin 2) + (rowDims G N C wf).window (ix2 n j') (0 : Fin 2)
          ∧ (rowDims G N C wf).start (ix2 n j') idx (0 : Fin 2) + (rowDims G N C wf).window (ix2 n j') (0 : Fin 2)
              < ((G : ℕ) : Int)
        rw [hs0, hw0]; omega
      | ⟨1, _⟩ =>
        show 0 ≤ (rowDims G N C wf).start (ix2 n j') idx (1 : Fin 2) + (rowDims G N C wf).window (ix2 n j') (1 : Fin 2)
          ∧ (rowDims G N C wf).start (ix2 n j') idx (1 : Fin 2) + (rowDims G N C wf).window (ix2 n j') (1 : Fin 2)
              < ((C : ℕ) : Int)
        rw [hs1, hw1]; omega

/-- A ROW SCATTER-ADD IS A SUM PER SEGMENT. At `(g, j)` the result is the operand's entry plus the sum of `upd (n, j)`
    over the rows `n` whose index word, read signed, is `g`: the sum over the update entries landing at `(g, j)`, split
    into rows and columns, keeps in row `n` only column `j`, and only when the row's word is `g`. -/
theorem hostScatterAdd_rowDims_apply (x : (⟨2, ![G, C]⟩ : Shape).Idx → EReal) (idx : IVec ⟨2, ![N, 1]⟩ w)
    (upd : (⟨2, ![N, C]⟩ : Shape).Idx → EReal) (g : Fin G) (j : Fin C) :
    Ideal.hostScatterAdd (rowDims G N C wf) x idx upd (ix2 g j)
      = x (ix2 g j) + ∑ n : Fin N, if (idx (ix2 n 0)).toInt = (g.val : Int) then upd (ix2 n j) else 0 := by
  unfold Ideal.hostScatterAdd
  congr 1
  rw [Finset.sum_filter, sum_idx2]
  refine Finset.sum_congr rfl fun n _ => ?_
  simp only [rowDims_resultIdx wf]
  by_cases ht : (idx (ix2 n 0)).toInt = (g.val : Int)
  · simp only [ht, true_and, if_true]
    rw [Finset.sum_ite_eq' Finset.univ j (fun j' => upd (ix2 n j'))]
    simp only [Finset.mem_univ, if_true]
  · simp only [ht, false_and, if_false]
    exact Finset.sum_const_zero

end Cert.LibPoolScatter

end
-- ==== Proof.LibDegreeCount.lean ====
/-
  Counting the edges into a node two ways.

  A scatter-add of a length-E vector of updates into a length-N vector, and a scatter-add of the E rows of an E×1
  column of updates into an N×1 column, driven by the same E index words, leave the same number at node n whenever the
  two operands agree at n and the two updates agree at every edge: each is the operand's entry plus the sum of the
  updates over the edges whose index word, read signed, is n. With zero operands and updates all one both count the
  edges into n.

  The neighbour mean then reads the same either way: the per-node count clamped below at one is never zero, so a sum
  times its reciprocal is the sum divided by it (`mul_recip_clamped`, `recip_col_apply`, `rowScale_recip_eq_div`).
  It builds on the two scatter-add readings, the layer module and the layout readings (the modules it imports beside
  the library).
-/
import Idealize.ShloMosaic.PureOps.Ideal
import Idealize.ShloMosaic.Lib.ValueIdx
import proofs.«157894_j8160437862402_1_alg».proof.Proof.LibSegCount
import proofs.«157894_j8160437862402_1_alg».proof.Proof.LibPoolScatter
import proofs.«157894_j8160437862402_1_alg».proof.Proof.LibGraphConv
import proofs.«157894_j8160437862402_1_alg».proof.Proof.LibColumn
import proofs.«157894_j8160437862402_1_alg».proof.Proof.LibSageLayer

noncomputable section

namespace Cert.Sage

open Idealize.ShloMosaic Idealize.ShloMosaic.ValueIdx

/-- The vector scatter-add and the one-column row scatter-add agree at node n. -/
theorem count_vec_eq_col {N E w : ℕ}
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (idx : IVec ⟨2, ![E, 1]⟩ w)
    (x1 : (⟨1, ![N]⟩ : Shape).Idx → EReal) (u1 : (⟨1, ![E]⟩ : Shape).Idx → EReal)
    (x2 : (⟨2, ![N, 1]⟩ : Shape).Idx → EReal) (u2 : (⟨2, ![E, 1]⟩ : Shape).Idx → EReal)
    (n : Fin N) (hx : x1 (ix1 n) = x2 (ix2 n (0 : Fin 1))) (hu : ∀ e : Fin E, u1 (ix1 e) = u2 (ix2 e (0 : Fin 1))) :
    Ideal.hostScatterAdd (Cert.LibSegCount.vecDims N E wf1) x1 idx u1 (ix1 n)
      = Ideal.hostScatterAdd (Cert.LibPoolScatter.rowDims N E 1 wf2) x2 idx u2 (ix2 n (0 : Fin 1)) := by
  rw [Cert.LibSegCount.hostScatterAdd_vecDims_apply, Cert.LibPoolScatter.hostScatterAdd_rowDims_apply, hx]
  refine congrArg _ (Finset.sum_congr rfl fun e _ => ?_)
  rw [hu e]

/-- The same fact over the host's scatter-add, which on the extended reals is that exact sum. -/
theorem host_count_vec_eq_col {N E w : ℕ}
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (idx : IVec ⟨2, ![E, 1]⟩ w)
    (x1 : FVec Ideal ⟨1, ![N]⟩ .f32) (u1 : FVec Ideal ⟨1, ![E]⟩ .f32)
    (x2 : FVec Ideal ⟨2, ![N, 1]⟩ .f32) (u2 : FVec Ideal ⟨2, ![E, 1]⟩ .f32)
    (n : Fin N) (hx : x1 (ix1 n) = x2 (ix2 n (0 : Fin 1))) (hu : ∀ e : Fin E, u1 (ix1 e) = u2 (ix2 e (0 : Fin 1))) :
    Host.scatterAdd (Cert.LibSegCount.vecDims N E wf1) x1 idx u1 (ix1 n)
      = Host.scatterAdd (Cert.LibPoolScatter.rowDims N E 1 wf2) x2 idx u2 (ix2 n (0 : Fin 1)) :=
  count_vec_eq_col wf1 wf2 idx x1 u1 x2 u2 n hx hu

/-- A scalar constant copied to every entry of an array reads, at any entry, the constant. -/
theorem bcast_const_apply {S : Shape} (h : (⟨0, ![]⟩ : Shape).BroadcastsInDim S ![]) (b : BitVec FTy.f32.bits) (i : S.Idx) :
    broadcastInDim S ![] h (constant (F := Ideal) (⟨0, ![]⟩ : Shape) .f32 b) i = Ideal.ofBits .f32 b := by
  rw [broadcastInDim_apply ![] h _ i ix0 (fun ax => ax.elim0)]
  rfl

/-- A sum times the reciprocal of a count clamped below at one is the sum divided by that clamped count. -/
theorem mul_recip_clamped (s d : EReal) : s * Ideal.div 1 (max d 1) = Ideal.div s (max d 1) :=
  LibGraphConv.mul_recip_eq_div s (max d 1) (lt_of_lt_of_le zero_lt_one (le_max_right _ _)).ne'

/-- The column 1 / max(d, 1) made from a vector d, read at node n. -/
theorem recip_col_apply {N : ℕ} (d : FVec Ideal ⟨1, ![N]⟩ .f32) (h0 : (⟨0, ![]⟩ : Shape).BroadcastsInDim ⟨1, ![N]⟩ ![])
    (hc : (⟨1, ![N]⟩ : Shape).ShapeCasts ⟨2, ![N, 1]⟩) (n : Fin N) :
    shapeCast ⟨2, ![N, 1]⟩
        (Host.divf (broadcastInDim ⟨1, ![N]⟩ ![] h0 (constant (F := Ideal) (⟨0, ![]⟩ : Shape) .f32 0x3F800000#32))
          (maximumf d (broadcastInDim ⟨1, ![N]⟩ ![] h0 (constant (F := Ideal) (⟨0, ![]⟩ : Shape) .f32 0x3F800000#32))))
        hc (ix2 n (0 : Fin 1))
      = Ideal.div 1 (max (d (ix1 n)) 1) := by
  rw [Cert.LibColumn.shapeCast_a_a1_apply]
  show Ideal.div (broadcastInDim ⟨1, ![N]⟩ ![] h0 (constant (F := Ideal) (⟨0, ![]⟩ : Shape) .f32 0x3F800000#32) (ix1 n))
      (max (d (ix1 n)) (broadcastInDim ⟨1, ![N]⟩ ![] h0 (constant (F := Ideal) (⟨0, ![]⟩ : Shape) .f32 0x3F800000#32) (ix1 n))) = _
  rw [bcast_const_apply, Ideal.ofBits_one_f32]

/-- THE NEIGHBOUR MEAN, EITHER WAY: sums whose rows are scaled by a column reading 1 / max(d n, 1) at node n are the
    sums divided entrywise by an array reading max(d n, 1) all along row n. -/
theorem rowScale_recip_eq_div {N K : ℕ} (S D : FVec Ideal ⟨2, ![N, K]⟩ .f32) (s : FVec Ideal ⟨2, ![N, 1]⟩ .f32)
    (d : Fin N → EReal) (hs : ∀ n : Fin N, s (ix2 n (0 : Fin 1)) = Ideal.div 1 (max (d n) 1))
    (hD : ∀ (n : Fin N) (k : Fin K), D (ix2 n k) = max (d n) 1) :
    rowScale S s = Host.divf S D := by
  funext i
  obtain ⟨n, k, rfl⟩ : ∃ (n : Fin N) (k : Fin K), i = ix2 n k := ⟨i 0, i 1, eq_ix2 i⟩
  rw [rowScale_apply, hs]
  show _ = Ideal.div (S (ix2 n k)) (D (ix2 n k))
  rw [hD]
  exact mul_recip_clamped _ _

end Cert.Sage

end
-- ==== Proof.Bridge.lean ====
/-
  The kernel program and the reference compute the same array.

  Layer by layer both are the layer `Cert.Sage.layer` of a neighbour-mean array, the features, and the weights and
  vectors of the launch memory. What differs is how the mean is formed:
  * the per-node sums of the gathered rows are formed by the same gather and scatter-add of the same edge words on both
    sides, so they are one array;
  * the kernel program multiplies the sums by the column 1 / max(degree, 1), the degree a scatter-add of a VECTOR of ones;
    the reference divides the sums by max(degree, 1) copied along the row, its degree a scatter-add of a COLUMN of ones.
    Both degrees count the edges into the node (`Cert.Sage.count_vec_eq_col`), and since the clamped count is at least
    one, the product with its reciprocal is the quotient (`Cert.Sage.mul_recip_clamped`).
  The second layer repeats this over the first layer's result.
-/
import proofs.«157894_j8160437862402_1_alg».proof.Proof.KernelFold
import proofs.«157894_j8160437862402_1_alg».proof.Proof.RefLayers
import proofs.«157894_j8160437862402_1_alg».proof.Proof.LibDegreeCount

set_option maxRecDepth 16384

noncomputable section

namespace Cert.Bridge

open Idealize.ShloMosaic Idealize.ShloMosaic.ValueIdx
open Cert.ReferenceIdeal.Read Cert.KernelIdeal.Fold

/-! ## The sums of the neighbours' rows are one array on both sides -/

theorem sums1_eq (x0 : (⟨Cert.ReferenceIdeal.S200000x130, .f32⟩ : BufTy).Contents (Elt Ideal)) (x1 : (⟨Cert.ReferenceIdeal.S2x600000, .i32⟩ : BufTy).Contents (Elt Ideal)) :
    val_main_v13 (F := Ideal) x0 x1 = aggregate130 x0 x1 := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst
  unfold aggregate130 dstCol srcCol dstWords srcWords
  rfl

theorem sums2_eq (h : (⟨Cert.ReferenceIdeal.S200000x128, .f32⟩ : BufTy).Contents (Elt Ideal)) (x1 : (⟨Cert.ReferenceIdeal.S2x600000, .i32⟩ : BufTy).Contents (Elt Ideal)) :
    Host.scatterAdd Cert.ReferenceIdeal.scatter_S200000x128_S600000x1_S600000x128_1_0_0_1 (val_main_v49 (F := Ideal)) (val_main_v50 (F := Ideal) x1)
      (Host.gather Cert.ReferenceIdeal.gather_S200000x128_S600000x1_S600000x128_1_0_n_n_0_1_1128 h (val_main_v47 (F := Ideal) x1))
    = aggregate128 h x1 := by
  unfold val_main_v50 val_main_v49 val_main_v47 val_main_v46 val_main_v45 val_main_v44 val_main_v43 val_main_v42
    val_main_v3 val_main_v2 val_main_v1 val_main_v0 val_main_c_5 val_main_c_6 val_main_cst_7
  unfold aggregate128 dstCol srcCol dstWords srcWords
  rfl

/-! ## The degree, counted two ways -/

/-- The reciprocal column at node n is 1 / max(degree n, 1). -/
theorem recip_entry (x1 : IVec Cert.KernelIdeal.S2x600000 32) (n : Fin 200000) :
    recipCol x1 (ix2 n (0 : Fin 1)) = Ideal.div 1 (max (degree x1 (ix1 n)) 1) := by
  unfold recipCol
  exact Cert.Sage.recip_col_apply (N := 200000) (degree x1) _ _ n

/-- The printed dimension numbers of the two degree scatters are the vector form and the row form. -/
theorem vecDims_eq : Cert.KernelIdeal.scatter_S200000_S600000x1_S600000_n_0_0_1
    = Cert.LibSegCount.vecDims 200000 600000 Cert.KernelIdeal.scatter_S200000_S600000x1_S600000_n_0_0_1.wf := rfl
theorem rowDims_eq : Cert.ReferenceIdeal.scatter_S200000x1_S600000x1_S600000x1_1_0_0_1
    = Cert.LibPoolScatter.rowDims 200000 600000 1 Cert.ReferenceIdeal.scatter_S200000x1_S600000x1_S600000x1_1_0_0_1.wf := rfl

/-- Both degree scatters are driven by the destination words as a column. -/
theorem dstCol_eq (x1 : (⟨Cert.ReferenceIdeal.S2x600000, .i32⟩ : BufTy).Contents (Elt Ideal)) : val_main_v16 (F := Ideal) x1 = dstCol x1 := by
  unfold val_main_v16 val_main_v3 val_main_v2 dstCol dstWords
  rfl

/-- The vector of ones scattered into a vector and the column of ones scattered into a column count alike. -/
theorem degree_eq (x1 : (⟨Cert.ReferenceIdeal.S2x600000, .i32⟩ : BufTy).Contents (Elt Ideal)) (n : Fin 200000) :
    degree x1 (ix1 n) = val_main_v17 (F := Ideal) x1 (ix2 n (0 : Fin 1)) := by
  unfold degree val_main_v17
  rw [vecDims_eq, rowDims_eq, dstCol_eq]
  refine Cert.Sage.host_count_vec_eq_col _ _ _ _ _ _ _ n ?_ fun e => ?_
  · rw [Cert.Sage.bcast_const_apply, val_main_v15_apply, val_main_cst_2_apply]
    rfl
  · rw [Cert.Sage.bcast_const_apply, val_main_v14_apply, val_main_cst_1_apply]
    rfl

/-- The second layer's degree column is the first layer's: the same scatter-add of the same words. -/
theorem degree2_eq (x1 : (⟨Cert.ReferenceIdeal.S2x600000, .i32⟩ : BufTy).Contents (Elt Ideal)) : val_main_v55 (F := Ideal) x1 = val_main_v17 (F := Ideal) x1 := by
  unfold val_main_v55 val_main_v54 val_main_v53 val_main_v52 val_main_cst_8 val_main_cst_9 val_main_v17 val_main_v16 val_main_v15
    val_main_v14 val_main_cst_1 val_main_cst_2
  rfl

/-- The reference's divisor at (n, k) is max(degree n, 1), in each layer. -/
theorem clamp1_entry (x1 : (⟨Cert.ReferenceIdeal.S2x600000, .i32⟩ : BufTy).Contents (Elt Ideal)) (n : Fin 200000) (k : Fin 130) :
    val_main_v20 (F := Ideal) x1 (ix2 n k) = max (val_main_v17 (F := Ideal) x1 (ix2 n (0 : Fin 1))) 1 := by
  have hi : idx_main_v20 (ix2 n k) = ix2 n (0 : Fin 1) := funext fun a => Fin.ext (by
    match a with | ⟨0, _⟩ => rfl | ⟨1, _⟩ => rfl)
  rw [val_main_v20_apply, val_main_v19_apply, val_main_v18_apply, val_main_cst_3_apply, hi]
  simp only [Ideal.maximumf_def, Ideal.ofBits_def, Ideal.ofBits_one_f32]

theorem clamp2_entry (x1 : (⟨Cert.ReferenceIdeal.S2x600000, .i32⟩ : BufTy).Contents (Elt Ideal)) (n : Fin 200000) (k : Fin 128) :
    val_main_v58 (F := Ideal) x1 (ix2 n k) = max (val_main_v17 (F := Ideal) x1 (ix2 n (0 : Fin 1))) 1 := by
  have hi : idx_main_v58 (ix2 n k) = ix2 n (0 : Fin 1) := funext fun a => Fin.ext (by
    match a with | ⟨0, _⟩ => rfl | ⟨1, _⟩ => rfl)
  rw [val_main_v58_apply, val_main_v57_apply, val_main_v56_apply, val_main_cst_10_apply, hi, degree2_eq]
  simp only [Ideal.maximumf_def, Ideal.ofBits_def, Ideal.ofBits_one_f32]

/-! ## The neighbour means are one array on both sides -/

theorem means1_eq (x0 : (⟨Cert.ReferenceIdeal.S200000x130, .f32⟩ : BufTy).Contents (Elt Ideal)) (x1 : (⟨Cert.ReferenceIdeal.S2x600000, .i32⟩ : BufTy).Contents (Elt Ideal)) :
    Cert.Sage.rowScale (aggregate130 x0 x1) (recipCol x1) = val_main_v21 (F := Ideal) x0 x1 := by
  unfold val_main_v21
  rw [sums1_eq]
  exact Cert.Sage.rowScale_recip_eq_div (N := 200000) (K := 130) _ _ _ (fun n => val_main_v17 (F := Ideal) x1 (ix2 n (0 : Fin 1)))
    (fun n => (recip_entry x1 n).trans (by rw [degree_eq])) (fun n k => clamp1_entry x1 n k)

theorem means2_eq (h : (⟨Cert.ReferenceIdeal.S200000x128, .f32⟩ : BufTy).Contents (Elt Ideal)) (x1 : (⟨Cert.ReferenceIdeal.S2x600000, .i32⟩ : BufTy).Contents (Elt Ideal)) :
    Cert.Sage.rowScale (aggregate128 h x1) (recipCol x1) = Host.divf (aggregate128 h x1) (val_main_v58 (F := Ideal) x1) :=
  Cert.Sage.rowScale_recip_eq_div (N := 200000) (K := 128) _ _ _ (fun n => val_main_v17 (F := Ideal) x1 (ix2 n (0 : Fin 1)))
    (fun n => (recip_entry x1 n).trans (by rw [degree_eq])) (fun n k => clamp2_entry x1 n k)

/-- The reference's second mean array, with its sums written as the kernel program's aggregate of the first layer. -/
theorem means2_ref (x0 : (⟨Cert.ReferenceIdeal.S200000x130, .f32⟩ : BufTy).Contents (Elt Ideal)) (x1 : (⟨Cert.ReferenceIdeal.S2x600000, .i32⟩ : BufTy).Contents (Elt Ideal))
    (x2 : (⟨Cert.ReferenceIdeal.S130x128, .f32⟩ : BufTy).Contents (Elt Ideal)) (x3 : (⟨Cert.ReferenceIdeal.S128, .f32⟩ : BufTy).Contents (Elt Ideal)) (x4 : (⟨Cert.ReferenceIdeal.S130x128, .f32⟩ : BufTy).Contents (Elt Ideal))
    (x5 x6 x7 x8 : (⟨Cert.ReferenceIdeal.S128, .f32⟩ : BufTy).Contents (Elt Ideal)) :
    val_main_v59 (F := Ideal) x0 x1 x2 x3 x4 x5 x6 x7 x8
      = Host.divf (aggregate128 (val_main_v41 (F := Ideal) x0 x1 x2 x3 x4 x5 x6 x7 x8) x1) (val_main_v58 (F := Ideal) x1) := by
  unfold val_main_v59 val_main_v51 val_main_v48
  rw [sums2_eq]

/-! ## The two programs' results -/

open Idealize.SL.Sem in
/-- The first layer, as the kernel program forms it from the launch memory, is the reference's first layer of the same
    arrays. -/
theorem hidden_eq (m : (ℓ : Loc Cert.KernelIdeal.nD Cert.KernelIdeal.τ Cert.KernelIdeal.sig) → Buf (Elt Ideal) ℓ) (c : Dev Cert.KernelIdeal.nD) :
    Cert.KernelIdeal.Fold.hidden m c = val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  unfold Cert.KernelIdeal.Fold.hidden
  rw [Cert.ReferenceIdeal.Layers.layer1, means1_eq]

open Idealize.SL.Sem in
/-- THE RESULT of the kernel program is the reference's result term of the same launch arrays. -/
theorem result_eq (m : (ℓ : Loc Cert.KernelIdeal.nD Cert.KernelIdeal.τ Cert.KernelIdeal.sig) → Buf (Elt Ideal) ℓ) (c : Dev Cert.KernelIdeal.nD) :
    Cert.KernelIdeal.Fold.result m c = val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  unfold Cert.KernelIdeal.Fold.result
  rw [Cert.ReferenceIdeal.Layers.layer2, hidden_eq, means2_eq, means2_ref]

end Cert.Bridge

end
-- ==== Proof.lean ====
/-
  The kernel program and its reference are the same function of their arguments on the extended reals.

  Both programs are two layers of a mean-aggregating graph convolution, each followed by an affine normalisation with
  running statistics and a rectifier. A layer takes, for every node, the mean of its in-neighbours' feature rows (the
  sum of the rows gathered along the edges, over the in-degree clamped below at one), multiplies it by one weight
  matrix, adds a bias and the node's own row times a second weight matrix, subtracts the running mean, multiplies by
  scale · rsqrt(running variance + ε), adds the shift and takes the maximum with zero.

  The kernel program forms the sums and the degree on the host and hands each layer's matrix products, normalisation
  and rectifier to a kernel that walks the nodes in tiles of 2000 rows; it multiplies the sums by 1 / max(degree, 1)
  where the reference divides by max(degree, 1), counts the degree with a vector of ones where the reference uses a
  column of ones, and adds the bias after the second product where the reference adds it before. None of these
  changes a number: the count is the same count, a quotient by a number that is at least one is the product with its
  reciprocal, and addition of extended reals is commutative and associative. No finiteness of the inputs is used.

  Each kernel region's output array is the layer of the arrays it read (the tiles cover every row); the host stretches
  between are read back to the launch memory; the reference's result is read one operation at a time. The three frame
  claims are the generated frames and the generated reference run; the idealization rewrote nothing.
-/
import proofs.«157894_j8160437862402_1_alg».proof.Defs
import proofs.«157894_j8160437862402_1_alg».proof.Proof.Gen.Kernel
import proofs.«157894_j8160437862402_1_alg».proof.Proof.Gen.Kernel.Skeleton
import proofs.«157894_j8160437862402_1_alg».proof.Proof.Gen.Kernel.Launch
import proofs.«157894_j8160437862402_1_alg».proof.Proof.Gen.Kernel.Points
import proofs.«157894_j8160437862402_1_alg».proof.Proof.Gen.Kernel.Frame
import proofs.«157894_j8160437862402_1_alg».proof.Proof.Gen.KernelIdeal
import proofs.«157894_j8160437862402_1_alg».proof.Proof.Gen.KernelIdeal.Skeleton
import proofs.«157894_j8160437862402_1_alg».proof.Proof.Gen.KernelIdeal.Launch
import proofs.«157894_j8160437862402_1_alg».proof.Proof.Gen.KernelIdeal.Points
import proofs.«157894_j8160437862402_1_alg».proof.Proof.Gen.KernelIdeal.Frame
import proofs.«157894_j8160437862402_1_alg».proof.Proof.Gen.ReferenceIdeal
import proofs.«157894_j8160437862402_1_alg».proof.Proof.Gen.ReferenceIdeal.Run
import proofs.«157894_j8160437862402_1_alg».proof.Proof.Gen.ReferenceIdeal.Read
import proofs.«157894_j8160437862402_1_alg».proof.Proof.Gen.Pre_finite_inputs
import proofs.«157894_j8160437862402_1_alg».proof.Proof.KernelRun
import proofs.«157894_j8160437862402_1_alg».proof.Proof.Bridge
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The reference runs and leaves its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the second layer of the
    first layer of the launch arrays. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  show Cert.ReferenceIdeal.Value.res_main_v79 m' c
    = Cert.KernelIdeal.Gen.W4 m ρ c (Proc.devRef .tc Cert.KernelIdeal.main_v44)
  rw [Cert.ReferenceIdeal.Read.val_main_v79_eq, Cert.KernelIdeal.Fold.result_at, Cert.Bridge.result_eq,
    h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
